-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x1_d0_w32 : S1024x1.Iotas .tc 32 [0]
  iota_S1x512_d1_w32 : S1x512.Iotas .tc 32 [1]
  reduces_S1024x512_S1024 : S1024x512.Reduces [1] S1024
  shapeCasts_S1024_S1024x1 : S1024.ShapeCasts S1024x1
  reducesTo_S8192x1_S_d0_1 : S8192x1.ReducesTo [0, 1] S_
  h_S_ : 0 < S_.numel
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBase.lean ====
/-
  What the frame of the loss kernel is stated over, shared by the three runs of its body and by the launch.

  The grid has 8 x 16 points, point t = 16 i + j: row block i (1024 rows), column tile j (512 columns). The
  body zeroes its two row accumulators where j = 0, adds the tile's masked row sums into them at every point,
  and where j = 15 stores log (pos * neg) into the output block of row block i. Both branch conditions are
  functions of the point alone: j = 0 is t % 16 = 0 and j = 15 is t % 16 = 15, decided over the grid. The
  output window is written back exactly at the points with j = 15 and is idle at every other point; the four
  input windows are never idle and hold their blocks whether fetched at the point or not.
-/
import proofs.«143555_j26147760898823_1_alg».proof.Proof.Gen.Kernel.Launch
import proofs.«143555_j26147760898823_1_alg».proof.Proof.Gen.Kernel.Skeleton
import proofs.«143555_j26147760898823_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The core's buffer contents when the region is entered: the launch memory after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, and the four operations of the mean: it reduces to the region
    continued by those four, from the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [_] from hostOps0_sub)
    (show List.Forall _ [_] from hostOps0_fresh) main_chain

/-- The reshapes write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the fetch. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulators are zeroed where the tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output block is stored where the tile index is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl
/-- Away from the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

abbrev VO0_4 : View sig .tc .vmem S1024x1 .f32 := (Memref.whole cc0_stg4_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two row accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region invariant of a kernel that routes nothing itself: the two accumulators owned at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/-
  The body at a point of the first column tile (j = 0, not the last tile): on whole staging buffers holding the four
  input blocks, the output buffer at any contents (handed back untouched: nothing is stored into it here), and the
  two accumulators at any contents, the body runs to the end and leaves each accumulator with two whole-buffer
  stores written, the zero and then the tile's masked row sums added to it.
-/
import proofs.«143555_j26147760898823_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun xi4 E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KRunB.lean ====
/-
  The body at a point strictly inside a row block (0 < j < 15): the accumulators hold what the point before left, the
  output buffer is handed back untouched, and each accumulator is left with one whole-buffer store written: its
  contents plus the tile's masked row sums.
-/
import proofs.«143555_j26147760898823_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun xi4 E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.KRunC.lean ====
/-
  The body at the last column tile of a row block (j = 15): the accumulators hold what the point before left; each
  is left with one whole-buffer store written (its contents plus the tile's masked row sums), and the output
  buffer, found at any contents, with one whole-buffer store written: the logarithm of the product of the two
  accumulators as just updated.
-/
import proofs.«143555_j26147760898823_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, ?_, fun E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.Kernel.Hand

end
-- ==== Proof.KPieces.lean ====
/-
  What the body's stores leave behind, case by case. In each case the stores the run found into an accumulator are
  whole-buffer stores, so they cover it, and the accumulator's contents after the body are those stores read back
  (over anything: every entry is covered). The same for the output block in the one case that stores into it.
-/
import proofs.«143555_j26147760898823_1_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- First tile: the stores into the positive accumulator cover it. -/
theorem scover0_A_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1024x1.size (by sl_kernel_rfl) y

/-- First tile: what the positive accumulator holds after the body. -/
def sout0_A_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

/-- First tile: the stores into the negative accumulator cover it. -/
theorem scover0_A_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- First tile: what the negative accumulator holds after the body. -/
def sout0_A_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)

/-- Inner tile: the store into the positive accumulator covers it. -/
theorem scover0_B_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S1024x1.size (by sl_kernel_rfl) y

/-- Inner tile: what the positive accumulator holds after the body. -/
def sout0_B_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).1)

/-- Inner tile: the store into the negative accumulator covers it. -/
theorem scover0_B_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- Inner tile: what the negative accumulator holds after the body. -/
def sout0_B_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.1)

/-- Last tile: the store into the output block covers it. -/
theorem cover0_C_4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x1.size (by sl_kernel_rfl) y

/-- Last tile: what the output block holds after the body. -/
def out0_C_4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Last tile: the store into the positive accumulator covers it. -/
theorem scover0_C_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- Last tile: what the positive accumulator holds after the body. -/
def sout0_C_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Last tile: the store into the negative accumulator covers it. -/
theorem scover0_C_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x1.size (by sl_kernel_rfl) y

/-- Last tile: what the negative accumulator holds after the body. -/
def sout0_C_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

end Cert.Kernel.Hand

end
-- ==== Proof.KShares.lean ====
/-
  The share of its array each window holds. The input matrix is handed to the kernel twice, as the row-block
  window and as the column-tile window: each holds half of the one array's ownership; every other window's array
  is its own and is held whole.
-/
import proofs.«143555_j26147760898823_1_alg».proof.Proof.KBase

noncomputable section

namespace Cert.Kernel.Hand

open Idealize.ShloMosaic Idealize.SL Idealize.SL.RA

abbrev qs : Fin 5 → PosShare TreeShare := fun
  | 0 => fullShare.left | 1 => fullShare.right | 2 => fullShare | 3 => fullShare | 4 => fullShare
  | ⟨_ + 5, h⟩ => absurd h (Nat.not_lt.2 (Nat.le_add_left _ _))

end Cert.Kernel.Hand

end
-- ==== Proof.KData.lean ====
/-
  The proof data of the loss kernel's pipeline, and the body obligation at every grid point.

  Point t = 16 i + j of the 8 x 16 grid works on row block i and column tile j. The two row accumulators are
  carried from point to point: where j = 0 they restart from zero, and at every point the tile's masked row sums
  are added. So what they hold after point t is a recursion over t: at j = 0 a function of the point's blocks
  alone, elsewhere a function of the blocks and of what point t - 1 left. Where j = 15 the output block is stored
  from the updated accumulators; at every other point the output window is idle, its buffer handed back as found.
  The region invariant between points owns the two accumulators at exactly the recursion's values, which is what
  lets each point's run start from the contents the run before ended with.
-/
import proofs.«143555_j26147760898823_1_alg».proof.Proof.KPieces
import proofs.«143555_j26147760898823_1_alg».proof.Proof.KShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body leaves, point by point -/

/-- One point of the accumulation: what the output block's staging buffer and the two accumulators hold after the
    body at point `t`, given the pair `p` of accumulator contents the point before left. Where the tile index is 0
    the body zeroes the accumulators first, so `p` is not consulted; at the last tile the output block is stored as
    well; elsewhere the output component is a placeholder nothing reads (the window is idle there). The first
    and the last tile never coincide, so the first test settles the second. -/
def pointOuts (c : Dev nD) (t : Fin cfg0.N) (p : Vec F S1024x1 .f32 × Vec F S1024x1 .f32) :
    Vec F S1024x1 .f32 × Vec F S1024x1 .f32 × Vec F S1024x1 .f32 :=
  if h0 : t.val % 16 = 0 then
    (VO0_4.read (Elt F) VO0_4.junk,
     sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t),
     sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t))
  else if h1 : t.val % 16 = 15 then
    (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2,
     sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2,
     sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2)
  else
    (VO0_4.read (Elt F) VO0_4.junk,
     sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) p.1 p.2,
     sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) p.1 p.2)

/-- The accumulation: (the output block's staging contents, the positive accumulator, the negative accumulator)
    after the body at position `n`, by recursion on `n`. Position 0 has tile index 0, so what it is handed is
    never read: the placeholder pair stands for "anything". -/
def outsAt0 (c : Dev nD) : (n : ℕ) → n < cfg0.N → Vec F S1024x1 .f32 × Vec F S1024x1 .f32 × Vec F S1024x1 .f32
  | 0, hn => pointOuts m c ⟨0, hn⟩ (VS0_0.read (Elt F) VS0_0.junk, VS0_1.read (Elt F) VS0_1.junk)
  | n + 1, hn => pointOuts m c ⟨n + 1, hn⟩ (outsAt0 c n (Nat.lt_of_succ_lt hn)).2

theorem outsAt0_zero (c : Dev nD) (hn : 0 < cfg0.N) :
    outsAt0 m c 0 hn = pointOuts m c ⟨0, hn⟩ (VS0_0.read (Elt F) VS0_0.junk, VS0_1.read (Elt F) VS0_1.junk) := rfl
theorem outsAt0_succ (c : Dev nD) (n : ℕ) (hn : n + 1 < cfg0.N) :
    outsAt0 m c (n + 1) hn = pointOuts m c ⟨n + 1, hn⟩ (outsAt0 m c n (Nat.lt_of_succ_lt hn)).2 := rfl

/-- At a first tile: zero plus the tile's masked row sums, from the point's blocks alone. -/
theorem outsAt0_A (c : Dev nD) (t : Fin cfg0.N) (h0 : t.val % 16 = 0) (h1 : ¬t.val % 16 = 15) :
    outsAt0 m c t.val t.isLt = (VO0_4.read (Elt F) VO0_4.junk,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact (outsAt0_zero m c hn).trans (dif_pos h0)
  | succ n => exact (outsAt0_succ m c n hn).trans (dif_pos h0)

/-- At an inner tile: the accumulators the point before left, plus the tile's masked row sums. -/
theorem outsAt0_B (c : Dev nD) (t : Fin cfg0.N) (h0 : ¬t.val % 16 = 0) (h1 : ¬t.val % 16 = 15) :
    outsAt0 m c t.val t.isLt = (VO0_4.read (Elt F) VO0_4.junk,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod 16) h0
  | succ n => exact (outsAt0_succ m c n hn).trans ((dif_neg h0).trans (dif_neg h1))

/-- At a last tile: the same update, and the output block stored from the updated accumulators. -/
theorem outsAt0_C (c : Dev nD) (t : Fin cfg0.N) (h0 : ¬t.val % 16 = 0) (h1 : t.val % 16 = 15) :
    outsAt0 m c t.val t.isLt = (
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod 16) h0
  | succ n => exact (outsAt0_succ m c n hn).trans ((dif_neg h0).trans (dif_pos h1))

/-! ## The region invariant between points -/

/-- The invariant before position `n`. Before the first point it is what the launch hands the region: both
    accumulators owned at any contents and the generator register at some state. After point `n` the two
    accumulators are owned at exactly what the accumulation says they hold there. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2) ∗ (∃ r, prngReg c r))

theorem PhiS_first (c : Dev nD) (n : ℕ) (h : n ≤ cfg0.N) (hz : n = 0) : PhiS m c n h = Pipeline.ΦA spec0 c := by
  subst hz; rfl

theorem PhiS_after (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2) ∗ (∃ r, prngReg c r)) := rfl

/-- Before any point but the first, the accumulators are at what the point before left. -/
theorem PhiS_later (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2) ∗ (∃ r, prngReg c r)) := by
  cases n with
  | zero => exact absurd rfl hz
  | succ n => rfl

/-- Whatever the position, the invariant can forget what the accumulators hold: it gives back what the launch
    handed the region. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_after, PhiA0_eq]
    iintro ⟨⟨HS0, HS1⟩, Hg⟩
    isplitl [HS0 HS1]
    · isplitl [HS0]
      · iexists _; iexact HS0
      · iexists _; iexact HS1
    iexact Hg

/-! ## The pipeline's proof data -/

/-- The proof data on core `c`: the arrays as the region finds them; after the body at a point each input buffer
    still at its block and the output buffer at the accumulation's first component; the invariant `PhiS`; the
    matrix's two windows at half of its ownership each, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]
theorem q_eq (c : Dev nD) : (dats m 0 c).q = qs := by dsimp only [dats]
theorem owed_eq (c : Dev nD) (t : Fin (cfg0.N + 1)) : (dats m 0 c).owed t = 0 := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- The invariant when the body starts at point `t`. -/
theorem Phi_castSucc (c : Dev nD) (t : Fin cfg0.N) :
    (dats m 0 c).Φ t.castSucc = PhiS m c t.val (Nat.le_of_lt t.isLt) := by
  dsimp only [dats]; simp only [Fin.coe_castSucc]

/-- and when it ends there. -/
theorem Phi_succ (c : Dev nD) (t : Fin cfg0.N) :
    (dats m 0 c).Φ t.succ = PhiS m c (t.val + 1) t.isLt := rfl

/-- Each input's current staging buffer holds its block when the body runs, fetched at that point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the body is handed and what it returns -/

/-- A buffer every entry of which some store of the list covers reads, after those stores, as the stores read back
    through any view of its shape over anything. -/
theorem owns_of_cover (c : Dev nD) (M : Memref sig .tc .vmem S1024x1 .f32) (v' : View sig .tc .vmem S1024x1 .f32)
    (L : List (View.Piece (Elt F) S1024x1 .f32)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns
  iexists M.view.writes (Elt F) f L; isplitr
  · ipureintro; exact View.read_writes_of_cover M.view f v' v'.junk L hL
  iexact H

/-- The four input windows are live at every point: each buffer is returned at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3, after0_3]

/-- The output window at a last tile is live: its buffer is returned at the accumulation's output component. -/
theorem leaves0_4_last (c : Dev nD) (t : Fin cfg0.N) (h1 : t.val % 16 = 15) :
    (dats m 0 c).leavesExact 4 t = owns (c : Thread nD τ) (ms0_4 t) fullShare (outsAt0 m c t.val t.isLt).1 := by
  unfold Dat.leavesExact; rw [liveAt0_4 t ((hcond0_1 t).mpr h1), after0_4]

/-- Away from the last tile it is idle and not written back: its buffer is returned as it was found. -/
theorem leaves0_4_idle (c : Dev nD) (t : Fin cfg0.N) (h1 : ¬t.val % 16 = 15) :
    (dats m 0 c).leavesExact 4 t = iprop(∃ d, owns (c : Thread nD τ) (ms0_4 t) fullShare ((dats m 0 c).before 4 t d)) :=
  Dat.leavesExact_idle (dats m 0 c) 4 t (idleAt0_4 t (fun h => h1 ((hcond0_1 t).mp h))) (noFlush0_4 t (fun h => h1 ((hcond0_1 t).mp h)))

/-- What the body is called with at point `t`: the invariant, the core's debts, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at a first tile. The accumulators are zeroed before they are read, so the run takes them at any
    contents: the invariant forgets what they held (at the grid's first point it never knew). -/
theorem sound_first (c : Dev nD) (t : Fin cfg0.N) (h0 : t.val % 16 = 0) :
    bodyPre m c t ⊢ wp frame (wpE (defs₀ (F := F)) Variants.none c none) Set.univ (bodyAt0 t) (fun _ => bodyPost m c t) := by
  have h1 : ¬t.val % 16 = 15 := by omega
  unfold bodyPre
  have hΦ : (dats m 0 c).Φ t.castSucc ⊢ Pipeline.ΦA spec0 c := by
    rw [Phi_castSucc]; exact PhiS_forget m c _ _
  refine (sep_mono_left hΦ).trans ?_
  unfold bodyPost bodyAt0
  simp only [before0_0, before0_1, before0_2, before0_3]
  rw [show (dats m 0 c).owesAt () t.succ = (dats m 0 c).owesAt () t.castSucc from rfl]
  rw [Phi_succ, PhiS_after, PhiA0_eq]
  rw [leaves0_0, leaves0_1, leaves0_2, leaves0_3, leaves0_4_idle m c t h1]
  rw [outsAt0_A m c t h0 h1]
  dsimp only
  unfold sout0_A_0 sout0_A_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 ((dats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ES0, ES1⟩
  isplitl [ES0 ES1 Hg]
  · isplitl [ES0 ES1]
    · isplitl [ES0]
      · iapply (owns_of_cover c scM0_0 VS0_0 _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)))
        iexact ES0
      · iapply (owns_of_cover c scM0_1 VS0_1 _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)))
        iexact ES1
    iexact Hg
  isplitl [Ho]; · iexact Ho
  isplitl [H0]; · iexact H0
  isplitl [H1]; · iexact H1
  isplitl [H2]; · iexact H2
  isplitl [H3]; · iexact H3
  iexists d4; iexact H4

set_option maxHeartbeats 4000000 in
/-- The body at an inner tile. As at a last tile, without the output store: the idle output buffer goes through
    the run untouched and is returned as found. -/
theorem sound_inner (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [Phi_succ, PhiS_after, Phi_castSucc, PhiS_later m c _ _ hz]
  rw [leaves0_0, leaves0_1, leaves0_2, leaves0_3, leaves0_4_idle m c t h1]
  rw [outsAt0_B m c t h0 h1]
  dsimp only
  unfold sout0_B_0 sout0_B_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2 ((dats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ES0, ES1⟩
  isplitl [ES0 ES1 Hg]
  · isplitl [ES0 ES1]
    · isplitl [ES0]
      · iapply (owns_of_cover c scM0_0 VS0_0 _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES0
      · iapply (owns_of_cover c scM0_1 VS0_1 _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES1
    iexact Hg
  isplitl [Ho]; · iexact Ho
  isplitl [H0]; · iexact H0
  isplitl [H1]; · iexact H1
  isplitl [H2]; · iexact H2
  isplitl [H3]; · iexact H3
  iexists d4; iexact H4

set_option maxHeartbeats 4000000 in
/-- The body at a last tile. The invariant hands over the accumulators at what the point before left; the run
    adds the tile's sums and stores the output block; all three buffers are covered by their stores, so each is
    returned at the accumulation's value for this point. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [Phi_succ, PhiS_after, Phi_castSucc, PhiS_later m c _ _ hz]
  rw [leaves0_0, leaves0_1, leaves0_2, leaves0_3, leaves0_4_last m c t h1]
  rw [outsAt0_C m c t h0 h1]
  dsimp only
  unfold out0_C_4 sout0_C_0 sout0_C_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, E4, ES0, ES1⟩
  isplitl [ES0 ES1 Hg]
  · isplitl [ES0 ES1]
    · isplitl [ES0]
      · iapply (owns_of_cover c scM0_0 VS0_0 _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES0
      · iapply (owns_of_cover c scM0_1 VS0_1 _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES1
    iexact Hg
  isplitl [Ho]; · iexact Ho
  isplitl [H0]; · iexact H0
  isplitl [H1]; · iexact H1
  isplitl [H2]; · iexact H2
  isplitl [H3]; · iexact H3
  iapply (owns_of_cover c (ms0_4 t) VO0_4 _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
  iexact E4

/-! ## The obligation at every point, and the invariant at the region's two ends -/

/-- The body obligation at every point: the five windows written out, then the point's case. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  by_cases h0 : t.val % 16 = 0
  · exact sound_first m c t h0
  · by_cases h1 : t.val % 16 = 15
    · exact sound_last m c t h0 h1
    · exact sound_inner m c t h0 h1

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_first m c 0 _ rfl]

/-- At any position the invariant gives it back, -/
theorem Phi_forget (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_forget m c _ _

/-- in particular after the last point. -/
theorem hout (c : Dev nD) : (dats m 0 c).Φ (Fin.last cfg0.N) ⊢ Pipeline.ΦA spec0 c :=
  Phi_forget m c (Fin.last cfg0.N)

end Cert.Kernel.Hand

end
-- ==== Proof.KLaunch.lean ====
/-
  The launch of the loss kernel's program and what its run leaves in memory.

  The program is: two reshapes of the labels, the kernel region, and four host operations (the sum of the region's
  result over all its entries, from zero, divided by 8192). The input matrix reaches the region through TWO windows
  (row blocks and column tiles of one array), so the array's ownership is dealt between them in halves at the
  region's entry and the halves are only read; every other array has one window. After the region the result
  array is read by the sum; the four operations touch that array and four buffers that bypassed the region, nothing
  else, and write none of the region's arrays.
-/
import proofs.«143555_j26147760898823_1_alg».proof.Proof.KShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the four operations after the region touch -/

/-- The region's result array and the four buffers of the mean. -/
def tailS : Finset (DevRef τ sig) :=
  {Proc.devRef .tc main_v2, Proc.devRef .tc main_cst, Proc.devRef .tc main_v3, Proc.devRef .tc main_cst_0, Proc.devRef .tc main_v4}

theorem hostOps1_within : ∀ op ∈ (hostOps1 : List (HloOp τ sig (Elt F))), op.bufs ⊆ tailS := by
  intro op hop
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem hostOps1_fresh' : ∀ op ∈ (hostOps1 : List (HloOp τ sig (Elt F))), op.fresh = ∅ :=
  List.forall_iff_forall_mem.mp hostOps1_fresh

/-- The set held at a valuation, buffer by buffer. -/
theorem held_tailS (c : Dev nD) (W : Valuation τ sig (Elt F)) :
    (StableHlo.held (c.tc : Thread nD τ) tailS W : sProp 𝕄)
      = iprop((((c.tc : Thread nD τ).loc main_v2) ↦{fullShare} W (Proc.devRef .tc main_v2))
          ∗ (((c.tc : Thread nD τ).loc main_cst) ↦{fullShare} W (Proc.devRef .tc main_cst))
          ∗ (((c.tc : Thread nD τ).loc main_v3) ↦{fullShare} W (Proc.devRef .tc main_v3))
          ∗ (((c.tc : Thread nD τ).loc main_cst_0) ↦{fullShare} W (Proc.devRef .tc main_cst_0))
          ∗ (((c.tc : Thread nD τ).loc main_v4) ↦{fullShare} W (Proc.devRef .tc main_v4))) := by
  unfold StableHlo.held tailS
  rw [BI.bigSep_insert (by decide), BI.bigSep_insert (by decide), BI.bigSep_insert (by decide), BI.bigSep_insert (by decide), BI.bigSep_singleton]
  rfl

/-! ## The region's arrays, window by window -/

/-- The pipeline's arrays at contents G, one conjunct per window: the input matrix twice, at the two halves of
    its ownership; the two reshaped label arrays and the result array whole. -/
theorem arrays_chain {c : Dev nD} (dat : Dat τ (Elt F) Unit ℕ (UR sig nD τ) ℕ cfg0 c) (hq : dat.q = qs)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0)
          ∗ (((c.tc : Thread nD τ).loc main_arg0) ↦{fullShare.right} G 1)
          ∗ (((c.tc : Thread nD τ).loc main_v0) ↦{fullShare} G 2)
          ∗ (((c.tc : Thread nD τ).loc main_v1) ↦{fullShare} G 3)
          ∗ (((c.tc : Thread nD τ).loc main_v2) ↦{fullShare} G 4)) := by
  have h : (dat.arrays G : sProp 𝕄) = bigSep Finset.univ fun w : Fin cfg0.W =>
      (((c.tc : Thread nD τ).loc (Pipeline.arrRef spec0 w)) ↦{dat.share w} G w : sProp 𝕄) := by
    unfold Dat.arrays
    exact bigSep_congr fun w _ => by rw [(arr_whole0 w).set_eq_univ]
  rw [h, bigSep_W0]
  simp only [Dat.share, hq]
  rfl

/-- The distinct buffers behind the windows' arrays are the input matrix, the two reshaped label arrays and the result array. -/
theorem arrImage_eq : Finset.univ.image (Pipeline.arrRef spec0) = ({main_arg0, main_v0, main_v1, main_v2} : Finset (Ref sig .tc)) := by decide

/-- Those buffers, each whole at contents V, one conjunct per buffer. -/
theorem arrBufs_chain (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0)
          ∗ (((c.tc : Thread nD τ).loc main_v0) ↦{fullShare} V' main_v0)
          ∗ (((c.tc : Thread nD τ).loc main_v1) ↦{fullShare} V' main_v1)
          ∗ (((c.tc : Thread nD τ).loc main_v2) ↦{fullShare} V' main_v2)) := by
  unfold Pipeline.arrBufs
  rw [arrImage_eq, BI.bigSep_insert (by decide), BI.bigSep_insert (by decide), BI.bigSep_insert (by decide), BI.bigSep_singleton]
  rfl

/-- AT THE REGION'S ENTRY the buffers behind the arrays, each whole, are dealt to the windows: the input matrix's
    ownership is halved between its two windows, both of which hold its entry contents. -/
theorem entry_split (dats : (p : Fin 1) → (c : Dev nD) → Dat τ (Elt F) Unit ℕ (UR sig nD τ) ℕ (cfgs p) c)
    (hq : ∀ c, (dats 0 c).q = qs) (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_chain (dats 0 c) (hq c), arrBufs_chain]
  simp only [Dat.arrAt]
  rw [hA c 0, hA c 1, hA c 2, hA c 3, hA c 4]
  iintro ⟨H0, H2, H3, H4⟩
  ihave H := (pointsTo_share (PosShare.mem_left_op_right fullShare)).1 $$ H0
  icases H with ⟨Hl, Hr⟩
  isplitl [Hl]; · iexact Hl
  isplitl [Hr]; · iexact Hr
  isplitl [H2]; · iexact H2
  isplitl [H3]; · iexact H3
  iexact H4

/-! ## After the region: the four operations of the mean -/

variable (dats : (p : Fin 1) → (c : Dev nD) → Dat τ (Elt F) Unit ℕ (UR sig nD τ) ℕ (cfgs p) c)

/-- The core's buffer contents when the region is left: the result array at what the write-backs made of it,
    every other buffer as the region found it. -/
def Wexit (c : Dev nD) : Valuation τ sig (Elt F) :=
  Function.update (V0 m c) (Proc.devRef .tc main_v2) ((dats 0 c).arrAt 4 cfg0.N)

/-- The contents after the four operations. -/
def Wfin (c : Dev nD) (b : Ref sig .tc) : Buf (Elt F) ((c.tc : Thread nD τ).loc b) :=
  StableHlo.after hostOps1 (Wexit m dats c) (Proc.devRef .tc b)

theorem Wexit_v2 (c : Dev nD) : Wexit m dats c (Proc.devRef .tc main_v2) = (dats 0 c).arrAt 4 cfg0.N := by
  unfold Wexit; exact Function.update_self _ _ _

theorem Wexit_of_ne (c : Dev nD) (b : Ref sig .tc) (hb : b ≠ main_v2) : Wexit m dats c (Proc.devRef .tc b) = V m c b := by
  unfold Wexit; exact Function.update_of_ne (StableHlo.devRef_ne_of_ne hb) _ _

/-- The four operations write neither the result array nor the labels. -/
theorem Wfin_v2 (c : Dev nD) : Wfin m dats c main_v2 = (dats 0 c).arrAt 4 cfg0.N := by
  unfold Wfin
  rw [StableHlo.after_of_forall_not_mem _ _ (fun op hop => ?_), Wexit_v2]
  simp only [hostOps1, List.mem_cons, List.mem_nil_iff, or_false] at hop
  rcases hop with rfl | rfl | rfl | rfl <;>
    simp only [StableHlo.nullary_writes, StableHlo.binary_writes, Finset.mem_singleton] <;> exact StableHlo.devRef_ne_of_ne (by decide)

theorem Wfin_arg1 (c : Dev nD) : Wfin m dats c main_arg1 = V m c main_arg1 := by
  unfold Wfin
  rw [StableHlo.after_of_forall_not_mem _ _ (fun op hop => ?_), Wexit_of_ne m dats c main_arg1 (by decide)]
  simp only [hostOps1, List.mem_cons, List.mem_nil_iff, or_false] at hop
  rcases hop with rfl | rfl | rfl | rfl <;>
    simp only [StableHlo.nullary_writes, StableHlo.binary_writes, Finset.mem_singleton] <;> exact StableHlo.devRef_ne_of_ne (by decide)

/-- The set of the tail at the exit contents, buffer by buffer. -/
theorem held_exit (c : Dev nD) :
    (StableHlo.held (c.tc : Thread nD τ) tailS (Wexit m dats c) : sProp 𝕄)
      = iprop((((c.tc : Thread nD τ).loc main_v2) ↦{fullShare} (dats 0 c).arrAt 4 cfg0.N)
          ∗ (((c.tc : Thread nD τ).loc main_cst) ↦{fullShare} V m c main_cst)
          ∗ (((c.tc : Thread nD τ).loc main_v3) ↦{fullShare} V m c main_v3)
          ∗ (((c.tc : Thread nD τ).loc main_cst_0) ↦{fullShare} V m c main_cst_0)
          ∗ (((c.tc : Thread nD τ).loc main_v4) ↦{fullShare} V m c main_v4)) := by
  rw [held_tailS, Wexit_v2, Wexit_of_ne m dats c main_cst (by decide), Wexit_of_ne m dats c main_v3 (by decide),
    Wexit_of_ne m dats c main_cst_0 (by decide), Wexit_of_ne m dats c main_v4 (by decide)]

/-- and after the four operations. -/
theorem held_fin (c : Dev nD) :
    (StableHlo.held (c.tc : Thread nD τ) tailS (StableHlo.after hostOps1 (Wexit m dats c)) : sProp 𝕄)
      = iprop((((c.tc : Thread nD τ).loc main_v2) ↦{fullShare} (dats 0 c).arrAt 4 cfg0.N)
          ∗ (((c.tc : Thread nD τ).loc main_cst) ↦{fullShare} Wfin m dats c main_cst)
          ∗ (((c.tc : Thread nD τ).loc main_v3) ↦{fullShare} Wfin m dats c main_v3)
          ∗ (((c.tc : Thread nD τ).loc main_cst_0) ↦{fullShare} Wfin m dats c main_cst_0)
          ∗ (((c.tc : Thread nD τ).loc main_v4) ↦{fullShare} Wfin m dats c main_v4)) := by
  rw [held_tailS, show StableHlo.after hostOps1 (Wexit m dats c) (Proc.devRef .tc main_v2) = (dats 0 c).arrAt 4 cfg0.N from Wfin_v2 m dats c]
  rfl

-- a rule stated for any thread is applied at the TensorCore thread: unification unfolds plain definitions in a metavariable's type
set_option backward.isDefEq.respectTransparency.types false in
/-- FROM THE REGION'S EXIT the four operations run within the result array and the four buffers of the mean; the
    region's arrays come back as they were, the bypassing buffers at the contents after the operations. -/
theorem tail_run (hq : ∀ c, (dats 0 c).q = qs) (c : Dev nD) (Q' : PUnit → sProp 𝕄) :
    iprop((iprop((dats 0 c).arrays ((dats 0 c).arrAt · cfg0.N) ∗ Pipeline.unscopedRestP Pipeline.Prefetch.none spec0 c (Wfin m dats c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq hostOps1]) Q' := by
  have hrun : iprop(boundary (c.tc : Thread nD τ) ∗ (StableHlo.held (c.tc : Thread nD τ) tailS (Wexit m dats c) : sProp 𝕄))
      ⊢ iprop(((boundary (c.tc : Thread nD τ) ∗ (StableHlo.held (c.tc : Thread nD τ) tailS (StableHlo.after hostOps1 (Wexit m dats c)) : sProp 𝕄))
                -∗ wp frame (wpE (defs (F := F)) (Variants.lift Variants.none) (c.tc : Thread nD τ) none) Set.univ (Pipeline.chain []) Q')
          -∗ wp frame (wpE (defs (F := F)) (Variants.lift Variants.none) (c.tc : Thread nD τ) none) Set.univ (Pipeline.chain [StableHlo.seq hostOps1]) Q') := by
    have h := Pipeline.wp_seqs_then (Ix := Unit) (Name := ℕ) (U := UR sig nD τ) (Lvl := ℕ) (fun q => (cfgs q).toPCfg (Val := Elt F)) defs₀ Variants.none c tailS [] (K := Q') [hostOps1]
      (fun ops hops op hop => by rw [List.mem_singleton.mp hops] at hop; exact hostOps1_within op hop)
      (fun ops hops op hop => by rw [List.mem_singleton.mp hops] at hop; exact hostOps1_fresh' op hop) (Wexit m dats c)
    rw [show ([hostOps1] : List (List (HloOp τ sig (Elt F)))).flatten = hostOps1 from by simp only [List.flatten_cons, List.flatten_nil, List.append_nil]] at h
    exact h
  rw [held_exit, held_fin, Pipeline.chain_nil, wp_pure] at hrun
  rw [Pipeline.unscopedRestP_none, Pipeline.unscopedRestP_none, unscopedRest0_eq, unscopedRest0_eq, arrays_chain (dats 0 c) (hq c), Wfin_arg1]
  iintro ⟨Hk, Hb, ⟨A0, A1, A2, A3, A4⟩, ⟨R1, Rc, R3, Rc0, R4⟩⟩
  iapply hrun $$ [Hb A4 Rc R3 Rc0 R4]
  · isplitl [Hb]; · iexact Hb
    isplitl [A4]; · iexact A4
    isplitl [Rc]; · iexact Rc
    isplitl [R3]; · iexact R3
    isplitl [Rc0]; · iexact Rc0
    iexact R4
  iintro ⟨Hb, A4, Rc, R3, Rc0, R4⟩
  imodintro
  iapply Hk
  isplitl [A0 A1 A2 A3 A4]
  · isplitl [A0]; · iexact A0
    isplitl [A1]; · iexact A1
    isplitl [A2]; · iexact A2
    isplitl [A3]; · iexact A3
    iexact A4
  isplitl [R1]; · iexact R1
  isplitl [Rc]; · iexact Rc
  isplitl [R3]; · iexact R3
  isplitl [Rc0]; · iexact Rc0
  iexact R4

/-! ## The run -/

-- the launch theorem's implicit arguments are found by unifying its conclusion with this one
set_option backward.isDefEq.respectTransparency.types false in
/-- THE RUN. For any proof data of the pipeline whose body obligation holds, whose arrays are the region-entry contents,
    whose shares are the halves above and whose invariant starts and ends at the class's: every weakly fair execution
    of the program terminates, every array of the pipeline ends at what the write-backs made of it, and every
    other buffer at the contents the four operations of the mean leave. -/
theorem run_main_of (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = Wfin m dats c b) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m dats hq hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail_run m dats hq)
    (QY := fun c s => ∀ b ∈ Pipeline.restRefsP sig Pipeline.Prefetch.none spec0, s.mem ((c.tc : Thread nD τ).loc b) = Wfin m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m dats c) s')
      isplitl [HU] <;> iassumption)
    (hQ := fun s h c => ⟨(h c).1, Pipeline.rest_of_restP Pipeline.Prefetch.none spec0 (fun k => k.elim0) c (Wfin m dats c) s (fun k => k.elim0) (h c).2.1 (h c).2.2⟩)

/-- What the run leaves in the mean's result buffer: the sum of the region's result array over all its entries, from
    zero, divided by the row count. -/
theorem Wfin_v4 (c : Dev nD) :
    Wfin m dats c main_v4
      = Host.divf (Host.reduceAdd ((dats 0 c).arrAt 4 cfg0.N) (constant S_ .f32 0x00000000#32) reducesTo_S8192x1_S_d0_1 h_S_)
          (constant S_ .f32 0x46000000#32) := by
  unfold Wfin
  simp only [hostOps1]
  after_results
  rw [show Wexit m dats c (Proc.devRef .tc main_v2) = (dats 0 c).arrAt 4 cfg0.N from Wexit_v2 m dats c]

end Cert.Kernel.Hand

end
-- ==== Proof.KFrame.lean ====
/-
  The loss kernel's program runs, leaves both arguments as they were, and leaves in its result buffer the mean of the
  region's result array: the launch applied to the kernel's own proof data.
-/
import proofs.«143555_j26147760898823_1_alg».proof.Proof.KData
import proofs.«143555_j26147760898823_1_alg».proof.Proof.KLaunch

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Every weakly fair execution terminates; each array of the pipeline ends at what the write-backs made of it and
    every other buffer at what the four operations after the region leave. -/
theorem run_main : θ_run (defs (F := F)) (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Wfin m (dats m) c b) :=
  run_main_of m ρ (dats m) (fun c => (body_obligation m c).loose) (q_eq m) (owed_eq m) (A_eq m) (hin m) (hout m)

/-- The input matrix is only read (an input window's array keeps its entry contents), and the labels bypass the
    region and are not written by the operations after it. -/
theorem kept_args (r : PUnit × MemSt nD τ sig (Elt F)) (c : Dev nD)
    (h : (∀ w, r.2.mem ((spec0 w).arr.view.loc (c.tc : Thread nD τ)) = (dats m 0 c).arrAt w cfg0.N)
      ∧ ∀ b ∈ Pipeline.restRefs sig spec0, r.2.mem ((c.tc : Thread nD τ).loc b) = Wfin m (dats m) c b) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.1 0).trans (((dats m 0 c).arrAt_in 0 rfl _).trans ((A_eq m c 0).trans (V_main_arg0 m c))),
   (h.2 main_arg1 (Pipeline.mem_restRefs_of main_arg1 rfl (by decide))).trans ((Wfin_arg1 m (dats m) c).trans (V_main_arg1 m c))⟩

/-- THE FRAME: the program runs to its end, nothing faulting, and both arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c => kept_args m r c (h c)) (run_main m ρ)

/-- The run with the result named: the sum of the region's result array over all entries, from zero, over the row count. -/
theorem run_value : θ_run (defs (F := F)) (onTc (τ := τ) (main (F := F))) ⟨m, fun _ => 0, ρ⟩ (fun r => ∀ c : Dev nD,
      r.2.mem ((c.tc : Thread nD τ).loc main_v4)
          = Host.divf (Host.reduceAdd ((dats m 0 c).arrAt 4 cfg0.N) (constant S_ .f32 0x00000000#32) reducesTo_S8192x1_S_d0_1 h_S_)
              (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨((h c).2 main_v4 (Pipeline.mem_restRefs_of main_v4 rfl (by decide))).trans (Wfin_v4 m (dats m) c),
     (kept_args m r c (h c)).1, (kept_args m r c (h c)).2⟩) (run_main m ρ)

end Cert.Kernel.Hand

end
-- ==== Proof.KIBase.lean ====
/-
  What the frame of the loss kernel is stated over, shared by the three runs of its body and by the launch.

  The grid has 8 x 16 points, point t = 16 i + j: row block i (1024 rows), column tile j (512 columns). The
  body zeroes its two row accumulators where j = 0, adds the tile's masked row sums into them at every point,
  and where j = 15 stores log (pos * neg) into the output block of row block i. Both branch conditions are
  functions of the point alone: j = 0 is t % 16 = 0 and j = 15 is t % 16 = 15, decided over the grid. The
  output window is written back exactly at the points with j = 15 and is idle at every other point; the four
  input windows are never idle and hold their blocks whether fetched at the point or not.
-/
import proofs.«143555_j26147760898823_1_alg».proof.Proof.Gen.KernelIdeal.Launch
import proofs.«143555_j26147760898823_1_alg».proof.Proof.Gen.KernelIdeal.Skeleton
import proofs.«143555_j26147760898823_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The core's buffer contents when the region is entered: the launch memory after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, and the four operations of the mean: it reduces to the region
    continued by those four, from the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [_] from hostOps0_sub)
    (show List.Forall _ [_] from hostOps0_fresh) main_chain

/-- The reshapes write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the
    block index has not moved since the fetch. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulators are zeroed where the tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The output block is stored where the tile index is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl
/-- Away from the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

abbrev VO0_4 : View sig .tc .vmem S1024x1 .f32 := (Memref.whole cc0_stg4_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two row accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region invariant of a kernel that routes nothing itself: the two accumulators owned at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The body at a point of the first column tile (j = 0, not the last tile): on whole staging buffers holding the four
  input blocks, the output buffer at any contents (handed back untouched: nothing is stored into it here), and the
  two accumulators at any contents, the body runs to the end and leaves each accumulator with two whole-buffer
  stores written, the zero and then the tile's masked row sums added to it.
-/
import proofs.«143555_j26147760898823_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun xi4 E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KIRunB.lean ====
/-
  The body at a point strictly inside a row block (0 < j < 15): the accumulators hold what the point before left, the
  output buffer is handed back untouched, and each accumulator is left with one whole-buffer store written: its
  contents plus the tile's masked row sums.
-/
import proofs.«143555_j26147760898823_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) :
    Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun xi4 E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KIRunC.lean ====
/-
  The body at the last column tile of a row block (j = 15): the accumulators hold what the point before left; each
  is left with one whole-buffer store written (its contents plus the tile's masked row sums), and the output
  buffer, found at any contents, with one whole-buffer store written: the logarithm of the product of the two
  accumulators as just updated.
-/
import proofs.«143555_j26147760898823_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, ?_, fun E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.KernelIdeal.Hand

end
-- ==== Proof.KIPieces.lean ====
/-
  What the body's stores leave behind, case by case. In each case the stores the run found into an accumulator are
  whole-buffer stores, so they cover it, and the accumulator's contents after the body are those stores read back
  (over anything: every entry is covered). The same for the output block in the one case that stores into it.
-/
import proofs.«143555_j26147760898823_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- First tile: the stores into the positive accumulator cover it. -/
theorem scover0_A_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S1024x1.size (by sl_kernel_rfl) y

/-- First tile: what the positive accumulator holds after the body. -/
def sout0_A_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

/-- First tile: the stores into the negative accumulator cover it. -/
theorem scover0_A_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- First tile: what the negative accumulator holds after the body. -/
def sout0_A_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)

/-- Inner tile: the store into the positive accumulator covers it. -/
theorem scover0_B_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S1024x1.size (by sl_kernel_rfl) y

/-- Inner tile: what the positive accumulator holds after the body. -/
def sout0_B_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).1)

/-- Inner tile: the store into the negative accumulator covers it. -/
theorem scover0_B_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- Inner tile: what the negative accumulator holds after the body. -/
def sout0_B_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.1)

/-- Last tile: the store into the output block covers it. -/
theorem cover0_C_4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x1.size (by sl_kernel_rfl) y

/-- Last tile: what the output block holds after the body. -/
def out0_C_4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Last tile: the store into the positive accumulator covers it. -/
theorem scover0_C_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- Last tile: what the positive accumulator holds after the body. -/
def sout0_C_0 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Last tile: the store into the negative accumulator covers it. -/
theorem scover0_C_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x1.size (by sl_kernel_rfl) y

/-- Last tile: what the negative accumulator holds after the body. -/
def sout0_C_1 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

end Cert.KernelIdeal.Hand

end
-- ==== Proof.KIShares.lean ====
/-
  The share of its array each window holds. The input matrix is handed to the kernel twice, as the row-block
  window and as the column-tile window: each holds half of the one array's ownership; every other window's array
  is its own and is held whole.
-/
import proofs.«143555_j26147760898823_1_alg».proof.Proof.KIBase

noncomputable section

namespace Cert.KernelIdeal.Hand

open Idealize.ShloMosaic Idealize.SL Idealize.SL.RA

abbrev qs : Fin 5 → PosShare TreeShare := fun
  | 0 => fullShare.left | 1 => fullShare.right | 2 => fullShare | 3 => fullShare | 4 => fullShare
  | ⟨_ + 5, h⟩ => absurd h (Nat.not_lt.2 (Nat.le_add_left _ _))

end Cert.KernelIdeal.Hand

end
-- ==== Proof.KIData.lean ====
/-
  The proof data of the loss kernel's pipeline, and the body obligation at every grid point.

  Point t = 16 i + j of the 8 x 16 grid works on row block i and column tile j. The two row accumulators are
  carried from point to point: where j = 0 they restart from zero, and at every point the tile's masked row sums
  are added. So what they hold after point t is a recursion over t: at j = 0 a function of the point's blocks
  alone, elsewhere a function of the blocks and of what point t - 1 left. Where j = 15 the output block is stored
  from the updated accumulators; at every other point the output window is idle, its buffer handed back as found.
  The region invariant between points owns the two accumulators at exactly the recursion's values, which is what
  lets each point's run start from the contents the run before ended with.
-/
import proofs.«143555_j26147760898823_1_alg».proof.Proof.KIPieces
import proofs.«143555_j26147760898823_1_alg».proof.Proof.KIShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body leaves, point by point -/

/-- One point of the accumulation: what the output block's staging buffer and the two accumulators hold after the
    body at point `t`, given the pair `p` of accumulator contents the point before left. Where the tile index is 0
    the body zeroes the accumulators first, so `p` is not consulted; at the last tile the output block is stored as
    well; elsewhere the output component is a placeholder nothing reads (the window is idle there). The first
    and the last tile never coincide, so the first test settles the second. -/
def pointOuts (c : Dev nD) (t : Fin cfg0.N) (p : Vec F S1024x1 .f32 × Vec F S1024x1 .f32) :
    Vec F S1024x1 .f32 × Vec F S1024x1 .f32 × Vec F S1024x1 .f32 :=
  if h0 : t.val % 16 = 0 then
    (VO0_4.read (Elt F) VO0_4.junk,
     sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t),
     sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; omega) (iblk m c 0 t) (iblk m c 1 t) (iblk m c 2 t) (iblk m c 3 t))
  else if h1 : t.val % 16 = 15 then
    (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2,
     sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2,
     sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) p.1 p.2)
  else
    (VO0_4.read (Elt F) VO0_4.junk,
     sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) p.1 p.2,
     sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) p.1 p.2)

/-- The accumulation: (the output block's staging contents, the positive accumulator, the negative accumulator)
    after the body at position `n`, by recursion on `n`. Position 0 has tile index 0, so what it is handed is
    never read: the placeholder pair stands for "anything". -/
def outsAt0 (c : Dev nD) : (n : ℕ) → n < cfg0.N → Vec F S1024x1 .f32 × Vec F S1024x1 .f32 × Vec F S1024x1 .f32
  | 0, hn => pointOuts m c ⟨0, hn⟩ (VS0_0.read (Elt F) VS0_0.junk, VS0_1.read (Elt F) VS0_1.junk)
  | n + 1, hn => pointOuts m c ⟨n + 1, hn⟩ (outsAt0 c n (Nat.lt_of_succ_lt hn)).2

theorem outsAt0_zero (c : Dev nD) (hn : 0 < cfg0.N) :
    outsAt0 m c 0 hn = pointOuts m c ⟨0, hn⟩ (VS0_0.read (Elt F) VS0_0.junk, VS0_1.read (Elt F) VS0_1.junk) := rfl
theorem outsAt0_succ (c : Dev nD) (n : ℕ) (hn : n + 1 < cfg0.N) :
    outsAt0 m c (n + 1) hn = pointOuts m c ⟨n + 1, hn⟩ (outsAt0 m c n (Nat.lt_of_succ_lt hn)).2 := rfl

/-- At a first tile: zero plus the tile's masked row sums, from the point's blocks alone. -/
theorem outsAt0_A (c : Dev nD) (t : Fin cfg0.N) (h0 : t.val % 16 = 0) (h1 : ¬t.val % 16 = 15) :
    outsAt0 m c t.val t.isLt = (VO0_4.read (Elt F) VO0_4.junk,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact (outsAt0_zero m c hn).trans (dif_pos h0)
  | succ n => exact (outsAt0_succ m c n hn).trans (dif_pos h0)

/-- At an inner tile: the accumulators the point before left, plus the tile's masked row sums. -/
theorem outsAt0_B (c : Dev nD) (t : Fin cfg0.N) (h0 : ¬t.val % 16 = 0) (h1 : ¬t.val % 16 = 15) :
    outsAt0 m c t.val t.isLt = (VO0_4.read (Elt F) VO0_4.junk,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod 16) h0
  | succ n => exact (outsAt0_succ m c n hn).trans ((dif_neg h0).trans (dif_neg h1))

/-- At a last tile: the same update, and the output block stored from the updated accumulators. -/
theorem outsAt0_C (c : Dev nD) (t : Fin cfg0.N) (h0 : ¬t.val % 16 = 0) (h1 : t.val % 16 = 15) :
    outsAt0 m c t.val t.isLt = (
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact absurd (Nat.zero_mod 16) h0
  | succ n => exact (outsAt0_succ m c n hn).trans ((dif_neg h0).trans (dif_pos h1))

/-! ## The region invariant between points -/

/-- The invariant before position `n`. Before the first point it is what the launch hands the region: both
    accumulators owned at any contents and the generator register at some state. After point `n` the two
    accumulators are owned at exactly what the accumulation says they hold there. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2) ∗ (∃ r, prngReg c r))

theorem PhiS_first (c : Dev nD) (n : ℕ) (h : n ≤ cfg0.N) (hz : n = 0) : PhiS m c n h = Pipeline.ΦA spec0 c := by
  subst hz; rfl

theorem PhiS_after (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2) ∗ (∃ r, prngReg c r)) := rfl

/-- Before any point but the first, the accumulators are at what the point before left. -/
theorem PhiS_later (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2) ∗ (∃ r, prngReg c r)) := by
  cases n with
  | zero => exact absurd rfl hz
  | succ n => rfl

/-- Whatever the position, the invariant can forget what the accumulators hold: it gives back what the launch
    handed the region. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_after, PhiA0_eq]
    iintro ⟨⟨HS0, HS1⟩, Hg⟩
    isplitl [HS0 HS1]
    · isplitl [HS0]
      · iexists _; iexact HS0
      · iexists _; iexact HS1
    iexact Hg

/-! ## The pipeline's proof data -/

/-- The proof data on core `c`: the arrays as the region finds them; after the body at a point each input buffer
    still at its block and the output buffer at the accumulation's first component; the invariant `PhiS`; the
    matrix's two windows at half of its ownership each, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]
theorem q_eq (c : Dev nD) : (dats m 0 c).q = qs := by dsimp only [dats]
theorem owed_eq (c : Dev nD) (t : Fin (cfg0.N + 1)) : (dats m 0 c).owed t = 0 := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- The invariant when the body starts at point `t`. -/
theorem Phi_castSucc (c : Dev nD) (t : Fin cfg0.N) :
    (dats m 0 c).Φ t.castSucc = PhiS m c t.val (Nat.le_of_lt t.isLt) := by
  dsimp only [dats]; simp only [Fin.coe_castSucc]

/-- and when it ends there. -/
theorem Phi_succ (c : Dev nD) (t : Fin cfg0.N) :
    (dats m 0 c).Φ t.succ = PhiS m c (t.val + 1) t.isLt := rfl

/-- Each input's current staging buffer holds its block when the body runs, fetched at that point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the body is handed and what it returns -/

/-- A buffer every entry of which some store of the list covers reads, after those stores, as the stores read back
    through any view of its shape over anything. -/
theorem owns_of_cover (c : Dev nD) (M : Memref sig .tc .vmem S1024x1 .f32) (v' : View sig .tc .vmem S1024x1 .f32)
    (L : List (View.Piece (Elt F) S1024x1 .f32)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns
  iexists M.view.writes (Elt F) f L; isplitr
  · ipureintro; exact View.read_writes_of_cover M.view f v' v'.junk L hL
  iexact H

/-- The four input windows are live at every point: each buffer is returned at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3, after0_3]

/-- The output window at a last tile is live: its buffer is returned at the accumulation's output component. -/
theorem leaves0_4_last (c : Dev nD) (t : Fin cfg0.N) (h1 : t.val % 16 = 15) :
    (dats m 0 c).leavesExact 4 t = owns (c : Thread nD τ) (ms0_4 t) fullShare (outsAt0 m c t.val t.isLt).1 := by
  unfold Dat.leavesExact; rw [liveAt0_4 t ((hcond0_1 t).mpr h1), after0_4]

/-- Away from the last tile it is idle and not written back: its buffer is returned as it was found. -/
theorem leaves0_4_idle (c : Dev nD) (t : Fin cfg0.N) (h1 : ¬t.val % 16 = 15) :
    (dats m 0 c).leavesExact 4 t = iprop(∃ d, owns (c : Thread nD τ) (ms0_4 t) fullShare ((dats m 0 c).before 4 t d)) :=
  Dat.leavesExact_idle (dats m 0 c) 4 t (idleAt0_4 t (fun h => h1 ((hcond0_1 t).mp h))) (noFlush0_4 t (fun h => h1 ((hcond0_1 t).mp h)))

/-- What the body is called with at point `t`: the invariant, the core's debts, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at a first tile. The accumulators are zeroed before they are read, so the run takes them at any
    contents: the invariant forgets what they held (at the grid's first point it never knew). -/
theorem sound_first (c : Dev nD) (t : Fin cfg0.N) (h0 : t.val % 16 = 0) :
    bodyPre m c t ⊢ wp frame (wpE (defs₀ (F := F)) Variants.none c none) Set.univ (bodyAt0 t) (fun _ => bodyPost m c t) := by
  have h1 : ¬t.val % 16 = 15 := by omega
  unfold bodyPre
  have hΦ : (dats m 0 c).Φ t.castSucc ⊢ Pipeline.ΦA spec0 c := by
    rw [Phi_castSucc]; exact PhiS_forget m c _ _
  refine (sep_mono_left hΦ).trans ?_
  unfold bodyPost bodyAt0
  simp only [before0_0, before0_1, before0_2, before0_3]
  rw [show (dats m 0 c).owesAt () t.succ = (dats m 0 c).owesAt () t.castSucc from rfl]
  rw [Phi_succ, PhiS_after, PhiA0_eq]
  rw [leaves0_0, leaves0_1, leaves0_2, leaves0_3, leaves0_4_idle m c t h1]
  rw [outsAt0_A m c t h0 h1]
  dsimp only
  unfold sout0_A_0 sout0_A_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 ((dats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ES0, ES1⟩
  isplitl [ES0 ES1 Hg]
  · isplitl [ES0 ES1]
    · isplitl [ES0]
      · iapply (owns_of_cover c scM0_0 VS0_0 _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)))
        iexact ES0
      · iapply (owns_of_cover c scM0_1 VS0_1 _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)))
        iexact ES1
    iexact Hg
  isplitl [Ho]; · iexact Ho
  isplitl [H0]; · iexact H0
  isplitl [H1]; · iexact H1
  isplitl [H2]; · iexact H2
  isplitl [H3]; · iexact H3
  iexists d4; iexact H4

set_option maxHeartbeats 4000000 in
/-- The body at an inner tile. As at a last tile, without the output store: the idle output buffer goes through
    the run untouched and is returned as found. -/
theorem sound_inner (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [Phi_succ, PhiS_after, Phi_castSucc, PhiS_later m c _ _ hz]
  rw [leaves0_0, leaves0_1, leaves0_2, leaves0_3, leaves0_4_idle m c t h1]
  rw [outsAt0_B m c t h0 h1]
  dsimp only
  unfold sout0_B_0 sout0_B_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2 ((dats m 0 c).before 4 t d4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ES0, ES1⟩
  isplitl [ES0 ES1 Hg]
  · isplitl [ES0 ES1]
    · isplitl [ES0]
      · iapply (owns_of_cover c scM0_0 VS0_0 _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES0
      · iapply (owns_of_cover c scM0_1 VS0_1 _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES1
    iexact Hg
  isplitl [Ho]; · iexact Ho
  isplitl [H0]; · iexact H0
  isplitl [H1]; · iexact H1
  isplitl [H2]; · iexact H2
  isplitl [H3]; · iexact H3
  iexists d4; iexact H4

set_option maxHeartbeats 4000000 in
/-- The body at a last tile. The invariant hands over the accumulators at what the point before left; the run
    adds the tile's sums and stores the output block; all three buffers are covered by their stores, so each is
    returned at the accumulation's value for this point. -/
theorem sound_last (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0_0, before0_1, before0_2, before0_3]
  rw [show (dats m 0 c).owesAt () t.succ = (dats m 0 c).owesAt () t.castSucc from rfl]
  rw [Phi_succ, PhiS_after, Phi_castSucc, PhiS_later m c _ _ hz]
  rw [leaves0_0, leaves0_1, leaves0_2, leaves0_3, leaves0_4_last m c t h1]
  rw [outsAt0_C m c t h0 h1]
  dsimp only
  unfold out0_C_4 sout0_C_0 sout0_C_1
  iintro ⟨⟨⟨HS0, HS1⟩, Hg⟩, Ho, ⟨%d0, H0⟩, ⟨%d1, H1⟩, ⟨%d2, H2⟩, ⟨%d3, H3⟩, ⟨%d4, H4⟩⟩
  iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, E4, ES0, ES1⟩
  isplitl [ES0 ES1 Hg]
  · isplitl [ES0 ES1]
    · isplitl [ES0]
      · iapply (owns_of_cover c scM0_0 VS0_0 _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES0
      · iapply (owns_of_cover c scM0_1 VS0_1 _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
        iexact ES1
    iexact Hg
  isplitl [Ho]; · iexact Ho
  isplitl [H0]; · iexact H0
  isplitl [H1]; · iexact H1
  isplitl [H2]; · iexact H2
  isplitl [H3]; · iexact H3
  iapply (owns_of_cover c (ms0_4 t) VO0_4 _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2))
  iexact E4

/-! ## The obligation at every point, and the invariant at the region's two ends -/

/-- The body obligation at every point: the five windows written out, then the point's case. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  by_cases h0 : t.val % 16 = 0
  · exact sound_first m c t h0
  · by_cases h1 : t.val % 16 = 15
    · exact sound_last m c t h0 h1
    · exact sound_inner m c t h0 h1

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_first m c 0 _ rfl]

/-- At any position the invariant gives it back, -/
theorem Phi_forget (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_forget m c _ _

/-- in particular after the last point. -/
theorem hout (c : Dev nD) : (dats m 0 c).Φ (Fin.last cfg0.N) ⊢ Pipeline.ΦA spec0 c :=
  Phi_forget m c (Fin.last cfg0.N)

end Cert.KernelIdeal.Hand

end
-- ==== Proof.KILaunch.lean ====
/-
  The launch of the loss kernel's program and what its run leaves in memory.

  The program is: two reshapes of the labels, the kernel region, and four host operations (the sum of the region's
  result over all its entries, from zero, divided by 8192). The input matrix reaches the region through TWO windows
  (row blocks and column tiles of one array), so the array's ownership is dealt between them in halves at the
  region's entry and the halves are only read; every other array has one window. After the region the result
  array is read by the sum; the four operations touch that array and four buffers that bypassed the region, nothing
  else, and write none of the region's arrays.
-/
import proofs.«143555_j26147760898823_1_alg».proof.Proof.KIShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the four operations after the region touch -/

/-- The region's result array and the four buffers of the mean. -/
def tailS : Finset (DevRef τ sig) :=
  {Proc.devRef .tc main_v2, Proc.devRef .tc main_cst, Proc.devRef .tc main_v3, Proc.devRef .tc main_cst_0, Proc.devRef .tc main_v4}

theorem hostOps1_within : ∀ op ∈ (hostOps1 : List (HloOp τ sig (Elt F))), op.bufs ⊆ tailS := by
  intro op hop
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem hostOps1_fresh' : ∀ op ∈ (hostOps1 : List (HloOp τ sig (Elt F))), op.fresh = ∅ :=
  List.forall_iff_forall_mem.mp hostOps1_fresh

/-- The set held at a valuation, buffer by buffer. -/
theorem held_tailS (c : Dev nD) (W : Valuation τ sig (Elt F)) :
    (StableHlo.held (c.tc : Thread nD τ) tailS W : sProp 𝕄)
      = iprop((((c.tc : Thread nD τ).loc main_v2) ↦{fullShare} W (Proc.devRef .tc main_v2))
          ∗ (((c.tc : Thread nD τ).loc main_cst) ↦{fullShare} W (Proc.devRef .tc main_cst))
          ∗ (((c.tc : Thread nD τ).loc main_v3) ↦{fullShare} W (Proc.devRef .tc main_v3))
          ∗ (((c.tc : Thread nD τ).loc main_cst_0) ↦{fullShare} W (Proc.devRef .tc main_cst_0))
          ∗ (((c.tc : Thread nD τ).loc main_v4) ↦{fullShare} W (Proc.devRef .tc main_v4))) := by
  unfold StableHlo.held tailS
  rw [BI.bigSep_insert (by decide), BI.bigSep_insert (by decide), BI.bigSep_insert (by decide), BI.bigSep_insert (by decide), BI.bigSep_singleton]
  rfl

/-! ## The region's arrays, window by window -/

/-- The pipeline's arrays at contents G, one conjunct per window: the input matrix twice, at the two halves of
    its ownership; the two reshaped label arrays and the result array whole. -/
theorem arrays_chain {c : Dev nD} (dat : Dat τ (Elt F) Unit ℕ (UR sig nD τ) ℕ cfg0 c) (hq : dat.q = qs)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0)
          ∗ (((c.tc : Thread nD τ).loc main_arg0) ↦{fullShare.right} G 1)
          ∗ (((c.tc : Thread nD τ).loc main_v0) ↦{fullShare} G 2)
          ∗ (((c.tc : Thread nD τ).loc main_v1) ↦{fullShare} G 3)
          ∗ (((c.tc : Thread nD τ).loc main_v2) ↦{fullShare} G 4)) := by
  have h : (dat.arrays G : sProp 𝕄) = bigSep Finset.univ fun w : Fin cfg0.W =>
      (((c.tc : Thread nD τ).loc (Pipeline.arrRef spec0 w)) ↦{dat.share w} G w : sProp 𝕄) := by
    unfold Dat.arrays
    exact bigSep_congr fun w _ => by rw [(arr_whole0 w).set_eq_univ]
  rw [h, bigSep_W0]
  simp only [Dat.share, hq]
  rfl

/-- The distinct buffers behind the windows' arrays are the input matrix, the two reshaped label arrays and the result array. -/
theorem arrImage_eq : Finset.univ.image (Pipeline.arrRef spec0) = ({main_arg0, main_v0, main_v1, main_v2} : Finset (Ref sig .tc)) := by decide

/-- Those buffers, each whole at contents V, one conjunct per buffer. -/
theorem arrBufs_chain (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0)
          ∗ (((c.tc : Thread nD τ).loc main_v0) ↦{fullShare} V' main_v0)
          ∗ (((c.tc : Thread nD τ).loc main_v1) ↦{fullShare} V' main_v1)
          ∗ (((c.tc : Thread nD τ).loc main_v2) ↦{fullShare} V' main_v2)) := by
  unfold Pipeline.arrBufs
  rw [arrImage_eq, BI.bigSep_insert (by decide), BI.bigSep_insert (by decide), BI.bigSep_insert (by decide), BI.bigSep_singleton]
  rfl

/-- AT THE REGION'S ENTRY the buffers behind the arrays, each whole, are dealt to the windows: the input matrix's
    ownership is halved between its two windows, both of which hold its entry contents. -/
theorem entry_split (dats : (p : Fin 1) → (c : Dev nD) → Dat τ (Elt F) Unit ℕ (UR sig nD τ) ℕ (cfgs p) c)
    (hq : ∀ c, (dats 0 c).q = qs) (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_chain (dats 0 c) (hq c), arrBufs_chain]
  simp only [Dat.arrAt]
  rw [hA c 0, hA c 1, hA c 2, hA c 3, hA c 4]
  iintro ⟨H0, H2, H3, H4⟩
  ihave H := (pointsTo_share (PosShare.mem_left_op_right fullShare)).1 $$ H0
  icases H with ⟨Hl, Hr⟩
  isplitl [Hl]; · iexact Hl
  isplitl [Hr]; · iexact Hr
  isplitl [H2]; · iexact H2
  isplitl [H3]; · iexact H3
  iexact H4

/-! ## After the region: the four operations of the mean -/

variable (dats : (p : Fin 1) → (c : Dev nD) → Dat τ (Elt F) Unit ℕ (UR sig nD τ) ℕ (cfgs p) c)

/-- The core's buffer contents when the region is left: the result array at what the write-backs made of it,
    every other buffer as the region found it. -/
def Wexit (c : Dev nD) : Valuation τ sig (Elt F) :=
  Function.update (V0 m c) (Proc.devRef .tc main_v2) ((dats 0 c).arrAt 4 cfg0.N)

/-- The contents after the four operations. -/
def Wfin (c : Dev nD) (b : Ref sig .tc) : Buf (Elt F) ((c.tc : Thread nD τ).loc b) :=
  StableHlo.after hostOps1 (Wexit m dats c) (Proc.devRef .tc b)

theorem Wexit_v2 (c : Dev nD) : Wexit m dats c (Proc.devRef .tc main_v2) = (dats 0 c).arrAt 4 cfg0.N := by
  unfold Wexit; exact Function.update_self _ _ _

theorem Wexit_of_ne (c : Dev nD) (b : Ref sig .tc) (hb : b ≠ main_v2) : Wexit m dats c (Proc.devRef .tc b) = V m c b := by
  unfold Wexit; exact Function.update_of_ne (StableHlo.devRef_ne_of_ne hb) _ _

/-- The four operations write neither the result array nor the labels. -/
theorem Wfin_v2 (c : Dev nD) : Wfin m dats c main_v2 = (dats 0 c).arrAt 4 cfg0.N := by
  unfold Wfin
  rw [StableHlo.after_of_forall_not_mem _ _ (fun op hop => ?_), Wexit_v2]
  simp only [hostOps1, List.mem_cons, List.mem_nil_iff, or_false] at hop
  rcases hop with rfl | rfl | rfl | rfl <;>
    simp only [StableHlo.nullary_writes, StableHlo.binary_writes, Finset.mem_singleton] <;> exact StableHlo.devRef_ne_of_ne (by decide)

theorem Wfin_arg1 (c : Dev nD) : Wfin m dats c main_arg1 = V m c main_arg1 := by
  unfold Wfin
  rw [StableHlo.after_of_forall_not_mem _ _ (fun op hop => ?_), Wexit_of_ne m dats c main_arg1 (by decide)]
  simp only [hostOps1, List.mem_cons, List.mem_nil_iff, or_false] at hop
  rcases hop with rfl | rfl | rfl | rfl <;>
    simp only [StableHlo.nullary_writes, StableHlo.binary_writes, Finset.mem_singleton] <;> exact StableHlo.devRef_ne_of_ne (by decide)

/-- The set of the tail at the exit contents, buffer by buffer. -/
theorem held_exit (c : Dev nD) :
    (StableHlo.held (c.tc : Thread nD τ) tailS (Wexit m dats c) : sProp 𝕄)
      = iprop((((c.tc : Thread nD τ).loc main_v2) ↦{fullShare} (dats 0 c).arrAt 4 cfg0.N)
          ∗ (((c.tc : Thread nD τ).loc main_cst) ↦{fullShare} V m c main_cst)
          ∗ (((c.tc : Thread nD τ).loc main_v3) ↦{fullShare} V m c main_v3)
          ∗ (((c.tc : Thread nD τ).loc main_cst_0) ↦{fullShare} V m c main_cst_0)
          ∗ (((c.tc : Thread nD τ).loc main_v4) ↦{fullShare} V m c main_v4)) := by
  rw [held_tailS, Wexit_v2, Wexit_of_ne m dats c main_cst (by decide), Wexit_of_ne m dats c main_v3 (by decide),
    Wexit_of_ne m dats c main_cst_0 (by decide), Wexit_of_ne m dats c main_v4 (by decide)]

/-- and after the four operations. -/
theorem held_fin (c : Dev nD) :
    (StableHlo.held (c.tc : Thread nD τ) tailS (StableHlo.after hostOps1 (Wexit m dats c)) : sProp 𝕄)
      = iprop((((c.tc : Thread nD τ).loc main_v2) ↦{fullShare} (dats 0 c).arrAt 4 cfg0.N)
          ∗ (((c.tc : Thread nD τ).loc main_cst) ↦{fullShare} Wfin m dats c main_cst)
          ∗ (((c.tc : Thread nD τ).loc main_v3) ↦{fullShare} Wfin m dats c main_v3)
          ∗ (((c.tc : Thread nD τ).loc main_cst_0) ↦{fullShare} Wfin m dats c main_cst_0)
          ∗ (((c.tc : Thread nD τ).loc main_v4) ↦{fullShare} Wfin m dats c main_v4)) := by
  rw [held_tailS, show StableHlo.after hostOps1 (Wexit m dats c) (Proc.devRef .tc main_v2) = (dats 0 c).arrAt 4 cfg0.N from Wfin_v2 m dats c]
  rfl

-- a rule stated for any thread is applied at the TensorCore thread: unification unfolds plain definitions in a metavariable's type
set_option backward.isDefEq.respectTransparency.types false in
/-- FROM THE REGION'S EXIT the four operations run within the result array and the four buffers of the mean; the
    region's arrays come back as they were, the bypassing buffers at the contents after the operations. -/
theorem tail_run (hq : ∀ c, (dats 0 c).q = qs) (c : Dev nD) (Q' : PUnit → sProp 𝕄) :
    iprop((iprop((dats 0 c).arrays ((dats 0 c).arrAt · cfg0.N) ∗ Pipeline.unscopedRestP Pipeline.Prefetch.none spec0 c (Wfin m dats c)) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift Variants.none) (c.tc : Thread nD τ) none) Set.univ
          (Pipeline.chain [StableHlo.seq hostOps1]) Q' := by
  have hrun : iprop(boundary (c.tc : Thread nD τ) ∗ (StableHlo.held (c.tc : Thread nD τ) tailS (Wexit m dats c) : sProp 𝕄))
      ⊢ iprop(((boundary (c.tc : Thread nD τ) ∗ (StableHlo.held (c.tc : Thread nD τ) tailS (StableHlo.after hostOps1 (Wexit m dats c)) : sProp 𝕄))
                -∗ wp frame (wpE (defs (F := F)) (Variants.lift Variants.none) (c.tc : Thread nD τ) none) Set.univ (Pipeline.chain []) Q')
          -∗ wp frame (wpE (defs (F := F)) (Variants.lift Variants.none) (c.tc : Thread nD τ) none) Set.univ (Pipeline.chain [StableHlo.seq hostOps1]) Q') := by
    have h := Pipeline.wp_seqs_then (Ix := Unit) (Name := ℕ) (U := UR sig nD τ) (Lvl := ℕ) (fun q => (cfgs q).toPCfg (Val := Elt F)) defs₀ Variants.none c tailS [] (K := Q') [hostOps1]
      (fun ops hops op hop => by rw [List.mem_singleton.mp hops] at hop; exact hostOps1_within op hop)
      (fun ops hops op hop => by rw [List.mem_singleton.mp hops] at hop; exact hostOps1_fresh' op hop) (Wexit m dats c)
    rw [show ([hostOps1] : List (List (HloOp τ sig (Elt F)))).flatten = hostOps1 from by simp only [List.flatten_cons, List.flatten_nil, List.append_nil]] at h
    exact h
  rw [held_exit, held_fin, Pipeline.chain_nil, wp_pure] at hrun
  rw [Pipeline.unscopedRestP_none, Pipeline.unscopedRestP_none, unscopedRest0_eq, unscopedRest0_eq, arrays_chain (dats 0 c) (hq c), Wfin_arg1]
  iintro ⟨Hk, Hb, ⟨A0, A1, A2, A3, A4⟩, ⟨R1, Rc, R3, Rc0, R4⟩⟩
  iapply hrun $$ [Hb A4 Rc R3 Rc0 R4]
  · isplitl [Hb]; · iexact Hb
    isplitl [A4]; · iexact A4
    isplitl [Rc]; · iexact Rc
    isplitl [R3]; · iexact R3
    isplitl [Rc0]; · iexact Rc0
    iexact R4
  iintro ⟨Hb, A4, Rc, R3, Rc0, R4⟩
  imodintro
  iapply Hk
  isplitl [A0 A1 A2 A3 A4]
  · isplitl [A0]; · iexact A0
    isplitl [A1]; · iexact A1
    isplitl [A2]; · iexact A2
    isplitl [A3]; · iexact A3
    iexact A4
  isplitl [R1]; · iexact R1
  isplitl [Rc]; · iexact Rc
  isplitl [R3]; · iexact R3
  isplitl [Rc0]; · iexact Rc0
  iexact R4

/-! ## The run -/

-- the launch theorem's implicit arguments are found by unifying its conclusion with this one
set_option backward.isDefEq.respectTransparency.types false in
/-- THE RUN. For any proof data of the pipeline whose body obligation holds, whose arrays are the region-entry contents,
    whose shares are the halves above and whose invariant starts and ends at the class's: every weakly fair execution
    of the program terminates, every array of the pipeline ends at what the write-backs made of it, and every
    other buffer at the contents the four operations of the mean leave. -/
theorem run_main_of (hbody : ∀ c, Pipeline.BodyObligationLoose (dats 0 c) (defs₀ (F := F)) Variants.none () Set.univ)
    (hq : ∀ c, (dats 0 c).q = qs) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = Wfin m dats c b) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m dats hq hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail_run m dats hq)
    (QY := fun c s => ∀ b ∈ Pipeline.restRefsP sig Pipeline.Prefetch.none spec0, s.mem ((c.tc : Thread nD τ).loc b) = Wfin m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m dats c) s')
      isplitl [HU] <;> iassumption)
    (hQ := fun s h c => ⟨(h c).1, Pipeline.rest_of_restP Pipeline.Prefetch.none spec0 (fun k => k.elim0) c (Wfin m dats c) s (fun k => k.elim0) (h c).2.1 (h c).2.2⟩)

/-- What the run leaves in the mean's result buffer: the sum of the region's result array over all its entries, from
    zero, divided by the row count. -/
theorem Wfin_v4 (c : Dev nD) :
    Wfin m dats c main_v4
      = Host.divf (Host.reduceAdd ((dats 0 c).arrAt 4 cfg0.N) (constant S_ .f32 0x00000000#32) reducesTo_S8192x1_S_d0_1 h_S_)
          (constant S_ .f32 0x46000000#32) := by
  unfold Wfin
  simp only [hostOps1]
  after_results
  rw [show Wexit m dats c (Proc.devRef .tc main_v2) = (dats 0 c).arrAt 4 cfg0.N from Wexit_v2 m dats c]

end Cert.KernelIdeal.Hand

end
-- ==== Proof.KIFrame.lean ====
/-
  The loss kernel's program runs, leaves both arguments as they were, and leaves in its result buffer the mean of the
  region's result array: the launch applied to the kernel's own proof data.
-/
import proofs.«143555_j26147760898823_1_alg».proof.Proof.KIData
import proofs.«143555_j26147760898823_1_alg».proof.Proof.KILaunch

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Every weakly fair execution terminates; each array of the pipeline ends at what the write-backs made of it and
    every other buffer at what the four operations after the region leave. -/
theorem run_main : θ_run (defs (F := F)) (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Wfin m (dats m) c b) :=
  run_main_of m ρ (dats m) (fun c => (body_obligation m c).loose) (q_eq m) (owed_eq m) (A_eq m) (hin m) (hout m)

/-- The input matrix is only read (an input window's array keeps its entry contents), and the labels bypass the
    region and are not written by the operations after it. -/
theorem kept_args (r : PUnit × MemSt nD τ sig (Elt F)) (c : Dev nD)
    (h : (∀ w, r.2.mem ((spec0 w).arr.view.loc (c.tc : Thread nD τ)) = (dats m 0 c).arrAt w cfg0.N)
      ∧ ∀ b ∈ Pipeline.restRefs sig spec0, r.2.mem ((c.tc : Thread nD τ).loc b) = Wfin m (dats m) c b) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.1 0).trans (((dats m 0 c).arrAt_in 0 rfl _).trans ((A_eq m c 0).trans (V_main_arg0 m c))),
   (h.2 main_arg1 (Pipeline.mem_restRefs_of main_arg1 rfl (by decide))).trans ((Wfin_arg1 m (dats m) c).trans (V_main_arg1 m c))⟩

/-- THE FRAME: the program runs to its end, nothing faulting, and both arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c => kept_args m r c (h c)) (run_main m ρ)

/-- The run with the result named: the sum of the region's result array over all entries, from zero, over the row count. -/
theorem run_value : θ_run (defs (F := F)) (onTc (τ := τ) (main (F := F))) ⟨m, fun _ => 0, ρ⟩ (fun r => ∀ c : Dev nD,
      r.2.mem ((c.tc : Thread nD τ).loc main_v4)
          = Host.divf (Host.reduceAdd ((dats m 0 c).arrAt 4 cfg0.N) (constant S_ .f32 0x00000000#32) reducesTo_S8192x1_S_d0_1 h_S_)
              (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨((h c).2 main_v4 (Pipeline.mem_restRefs_of main_v4 rfl (by decide))).trans (Wfin_v4 m (dats m) c),
     (kept_args m r c (h c)).1, (kept_args m r c (h c)).2⟩) (run_main m ρ)

end Cert.KernelIdeal.Hand

end
-- ==== Proof.KIPieceVal.lean ====
/-
  What each case's stores leave in the two accumulators and in the output block, as the arithmetic of the tile.
  Inner tile: each accumulator is stored once, its previous contents plus the tile's masked row sums. First tile:
  each accumulator is stored twice, the zero and then zero plus the tile's sums; the later store fills the whole
  buffer, so it alone remains, and the load between the two stores reads the zero back. Last tile: the accumulators
  are updated as in an inner tile, and the output block is stored once, the logarithm of the product of the two
  accumulators as just updated: a load of an accumulator after its whole-buffer store reads the stored value.
  Every load and store here goes through the rectangle of the buffer's full size at offsets (0, 0), which is the
  whole buffer: a load through it reads the contents, a store through it leaves its payload.
-/
import proofs.«143555_j26147760898823_1_alg».proof.Proof.KIPieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets (0, 0), as the constant-zero function. -/
private theorem hz2 : (![0, 0] : Fin 2 → Nat) = fun _ => 0 := funext fun a => by fin_cases a <;> rfl

/-- Inner tile: the positive accumulator is left with its previous contents plus the tile's masked sums. -/
theorem sout0_B_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) :
    sout0_B_0 c i arg2 harg2 arg3 harg3 arg4 harg4 arg5 harg5 arg6 harg6 arg7 harg7 arg8 harg8 hc0 hc1 x0 x1 x2 x3 xs0 xs1 = k0_pay1 (k0_pay8 i x2 x3) (k0_pay10 x0 x1) (k0_pay11 (F := F)) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

/-- Inner tile: the negative accumulator is left with its previous contents plus the tile's masked sums. -/
theorem sout0_B_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x256 .f32) (x1 : Vec F S512x256 .f32) (x2 : Vec F S1024x1 .i32) (x3 : Vec F S1x512 .i32) (xs0 xs1 : Vec F S1024x1 .f32) :
    sout0_B_1 c i arg2 harg2 arg3 harg3 arg4 harg4 arg5 harg5 arg6 harg6 arg7 harg7 arg8 harg8 hc0 hc1 x0 x1 x2 x3 xs0 xs1 = k0_pay2 (k0_pay6 x0 x1) (k0_pay9 x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

/-- Last tile: the positive accumulator is updated as in an inner tile. -/
theorem sout0_C_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) :
    sout0_C_0 c i arg2 harg2 arg3 harg3 arg4 harg4 arg5 harg5 arg6 harg6 arg7 harg7 arg8 harg8 hc0 hc1 x0 x1 x2 x3 xs0 xs1 = k0_pay1 (k0_pay8 i x2 x3) (k0_pay10 x0 x1) (k0_pay11 (F := F)) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  dsimp only
  rw [View.canon_unit_zero (S := S1024x1) hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

/-- Last tile: the negative accumulator is updated as in an inner tile. -/
theorem sout0_C_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) :
    sout0_C_1 c i arg2 harg2 arg3 harg3 arg4 harg4 arg5 harg5 arg6 harg6 arg7 harg7 arg8 harg8 hc0 hc1 x0 x1 x2 x3 xs0 xs1 = k0_pay2 (k0_pay6 x0 x1) (k0_pay9 x2 x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  dsimp only
  rw [View.canon_unit_zero (S := S1024x1) hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

/-- Last tile: the output block is the logarithm of the product of the two accumulators as just updated. -/
theorem out0_C_4_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x256 .f32) (x1 : Vec F S512x256 .f32) (x2 : Vec F S1024x1 .i32) (x3 : Vec F S1x512 .i32) (xs0 xs1 : Vec F S1024x1 .f32) :
    out0_C_4 c i arg2 harg2 arg3 harg3 arg4 harg4 arg5 harg5 arg6 harg6 arg7 harg7 arg8 harg8 hc0 hc1 x0 x1 x2 x3 xs0 xs1 = k0_pay3 (k0_pay1 (k0_pay8 i x2 x3) (k0_pay10 x0 x1) (k0_pay11 (F := F)) xs0) (k0_pay2 (k0_pay6 x0 x1) (k0_pay9 x2 x3) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  dsimp only
  rw [View.canon_unit_zero (S := S1024x1) hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2,
    View.readCov_unit_zero (S := S1024x1) _ hz2]

/-- First tile: the positive accumulator is left with zero plus the tile's masked sums (the later store covers the reset). -/
theorem sout0_A_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) :
    sout0_A_0 c i arg2 harg2 arg3 harg3 arg4 harg4 arg5 harg5 arg6 harg6 arg7 harg7 arg8 harg8 hc0 hc1 x0 x1 x2 x3 = k0_pay1 (k0_pay8 i x2 x3) (k0_pay10 x0 x1) (k0_pay11 (F := F)) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  dsimp only
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

/-- First tile: the negative accumulator is left with zero plus the tile's masked sums (the later store covers the reset). -/
theorem sout0_A_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x256 .f32) (x1 : Vec F S512x256 .f32) (x2 : Vec F S1024x1 .i32) (x3 : Vec F S1x512 .i32) :
    sout0_A_1 c i arg2 harg2 arg3 harg3 arg4 harg4 arg5 harg5 arg6 harg6 arg7 harg7 arg8 harg8 hc0 hc1 x0 x1 x2 x3 = k0_pay2 (k0_pay6 x0 x1) (k0_pay9 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  dsimp only
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, harg8.read_unread,
    View.ld_unit_zero (S := S1024x1) hz2, View.ld_unit_zero (S := S1x512) hz2, View.ld_unit_zero (S := S1024x256) hz2, View.ld_unit_zero (S := S512x256) hz2]

end Cert.KernelIdeal.Hand

end
-- ==== Proof.Spec.lean ====
/-
  The loss both programs compute, as ONE function of the two argument arrays over the extended reals.

  For rows r, c of the 8192 x 256 input x and the 8192 labels tg:
    sim r c     = min 16 (max (-16) (<x_r, x_c> * gamma))          (gamma the f32 word 0x3A83126F on both sides)
    posTerm r c = exp (-(sim r c))  if tg r = tg c and r ≠ c, else 0
    negTerm r c = exp (sim r c)     if tg r ≠ tg c,           else 0
    rowLoss r   = log ((Σ_c posTerm r c) * (Σ_c negTerm r c))
    loss        = (Σ_r rowLoss r) / 8192
  The sums are finite sums in the commutative monoid of the extended reals, so any grouping of the columns
  into tiles, and any order of accumulation, gives the same value; no finiteness of the entries is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input matrix's shape and the labels' shape, as literals. -/
abbrev SX : Shape := ⟨2, ![8192, 256]⟩
abbrev ST : Shape := ⟨1, ![8192]⟩

/-- The scale, the lower and the upper clip bound, and the row count, each the extended real its f32 word denotes. -/
abbrev gamma : EReal := Ideal.ofBits .f32 0x3A83126F#32
abbrev lo : EReal := Ideal.ofBits .f32 0xC1800000#32
abbrev hi : EReal := Ideal.ofBits .f32 0x41800000#32
abbrev nrows : EReal := Ideal.ofBits .f32 0x46000000#32

/-- The inner product of rows r and c. -/
def dot (x : SX.Idx → EReal) (r c : Fin 8192) : EReal := ∑ k : Fin 256, x (ix2 r k) * x (ix2 c k)

/-- The scaled, clipped similarity of rows r and c. -/
def sim (x : SX.Idx → EReal) (r c : Fin 8192) : EReal := min hi (max lo (dot x r c * gamma))

/-- Column c's contribution to row r's positive sum: another row of the same label. -/
def posTerm (x : SX.Idx → EReal) (tg : ST.Idx → BitVec 32) (r c : Fin 8192) : EReal :=
  if tg (ix1 r) = tg (ix1 c) ∧ r ≠ c then Ideal.exp (-(sim x r c)) else 0

/-- Column c's contribution to row r's negative sum: a row of another label. -/
def negTerm (x : SX.Idx → EReal) (tg : ST.Idx → BitVec 32) (r c : Fin 8192) : EReal :=
  if tg (ix1 r) = tg (ix1 c) then 0 else Ideal.exp (sim x r c)

def posSum (x : SX.Idx → EReal) (tg : ST.Idx → BitVec 32) (r : Fin 8192) : EReal := ∑ c : Fin 8192, posTerm x tg r c
def negSum (x : SX.Idx → EReal) (tg : ST.Idx → BitVec 32) (r : Fin 8192) : EReal := ∑ c : Fin 8192, negTerm x tg r c

/-- Row r's loss. -/
def rowLoss (x : SX.Idx → EReal) (tg : ST.Idx → BitVec 32) (r : Fin 8192) : EReal :=
  Ideal.log (posSum x tg r * negSum x tg r)

/-- The mean of the rows' losses. -/
def loss (x : SX.Idx → EReal) (tg : ST.Idx → BitVec 32) : EReal :=
  Ideal.div (∑ r : Fin 8192, rowLoss x tg r) nrows

end Cert.Spec

end
-- ==== Proof.KIPayIdx.lean ====
/-
  The kernel body's pure values, read one entry at a time over the extended reals.

  For a row block (1024 rows of 256 features), a column tile (512 rows of 256 features), the block's labels as a
  column and the tile's labels as a row:
    tsim p q    = min hi (max lo (<row p of the block, row q of the tile> * gamma))
    same p q    : the label of row p is the label of column q
    offDiag p q : the global row number (block * 1024 + p) is not the global column number (tile * 512 + q)
  The similarity payload is tsim; the exponential payload is exp (-tsim); the positive mask is "same and offDiag",
  the negative mask is "not same"; each accumulator update adds to the carried column the sum over the tile's 512
  columns of the masked exponentials; the last value is the logarithm of the product of the two accumulators.
-/
import proofs.«143555_j26147760898823_1_alg».proof.Proof.Gen.KernelIdeal.Skeleton
import proofs.«143555_j26147760898823_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdx

open Cert.KernelIdeal Cert.KernelIdeal.Gen Idealize.ShloMosaic Idealize.ShloMosaic.ValueIdx
open scoped BigOperators

/-- The clipped, scaled similarity of row p of the row block and row q of the column tile:
    the inner product over the 256 features, times gamma, clipped to [lo, hi]. -/
def tsim (x0 : Vec Ideal S1024x256 .f32) (x1 : Vec Ideal S512x256 .f32) (p : Fin 1024) (q : Fin 512) : EReal :=
  min Cert.Spec.hi (max Cert.Spec.lo ((∑ k : Fin 256, x0 (ix2 p k) * x1 (ix2 q k)) * Cert.Spec.gamma))

/-- Row p of the block and column q of the tile carry the same label. -/
def same (x2 : Vec Ideal S1024x1 .i32) (x3 : Vec Ideal S1x512 .i32) (p : Fin 1024) (q : Fin 512) : Prop :=
  x2 (ix2 p (0 : Fin 1)) = x3 (ix2 (0 : Fin 1) q)

/-- The global row of (block i 0, local row p) differs from the global column of (tile i 1, local column q). -/
def offDiag (i : grid0.Coords) (p : Fin 1024) (q : Fin 512) : Prop :=
  (i 0).val * 1024 + p.val ≠ (i 1).val * 512 + q.val

instance (x2 : Vec Ideal S1024x1 .i32) (x3 : Vec Ideal S1x512 .i32) (p : Fin 1024) (q : Fin 512) : Decidable (same x2 x3 p q) :=
  inferInstanceAs (Decidable (x2 (ix2 p (0 : Fin 1)) = x3 (ix2 (0 : Fin 1) q)))

instance (i : grid0.Coords) (p : Fin 1024) (q : Fin 512) : Decidable (offDiag i p q) :=
  inferInstanceAs (Decidable ((i 0).val * 1024 + p.val ≠ (i 1).val * 512 + q.val))

/-! ## The product of the two blocks: both operands are contracted along their feature axis -/

theorem lhs_pay6_0 (j : S1024x512.Idx) (k : dot_S1024x256_S512x256_S1024x512_1_1_0_0_n_n.contr.Idx) :
    (dot_S1024x256_S512x256_S1024x512_1_1_0_0_n_n.lhsIdx j k 0).val = (j 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_pay6_1 (j : S1024x512.Idx) (k : dot_S1024x256_S512x256_S1024x512_1_1_0_0_n_n.contr.Idx) :
    (dot_S1024x256_S512x256_S1024x512_1_1_0_0_n_n.lhsIdx j k 1).val = (k ⟨0, by decide⟩).val :=
  dot_S1024x256_S512x256_S1024x512_1_1_0_0_n_n.lhsIdx_val_of_single rfl j k
theorem rhs_pay6_0 (j : S1024x512.Idx) (k : dot_S1024x256_S512x256_S1024x512_1_1_0_0_n_n.contr.Idx) :
    (dot_S1024x256_S512x256_S1024x512_1_1_0_0_n_n.rhsIdx j k 0).val = (j 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_pay6_1 (j : S1024x512.Idx) (k : dot_S1024x256_S512x256_S1024x512_1_1_0_0_n_n.contr.Idx) :
    (dot_S1024x256_S512x256_S1024x512_1_1_0_0_n_n.rhsIdx j k 1).val = (k ⟨0, by decide⟩).val :=
  dot_S1024x256_S512x256_S1024x512_1_1_0_0_n_n.rhsIdx_val_of_single rfl j k

/-- Entry (p, q) of the product into a zero accumulator is the inner product of row p of the left block and
    row q of the right one. -/
theorem gram_apply (l : FVec Ideal S1024x256 .bf16) (r : FVec Ideal S512x256 .bf16) (p : Fin 1024) (q : Fin 512) :
    matmul dot_S1024x256_S512x256_S1024x512_1_1_0_0_n_n none l r (constant (F := Ideal) S1024x512 .f32 0x00000000#32) (ix2 p q)
      = ∑ k : Fin 256, l (ix2 p k) * r (ix2 q k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 p q) ((ValueIdx.contrEquiv1 dot_S1024x256_S512x256_S1024x512_1_1_0_0_n_n 256 rfl rfl).symm k) = ix2 p k := funext fun a => Fin.ext (by
    match a with
    | ⟨0, _⟩ => exact lhs_pay6_0 _ _
    | ⟨1, _⟩ => exact (lhs_pay6_1 _ _).trans hk)
  have er : dot_S1024x256_S512x256_S1024x512_1_1_0_0_n_n.rhsIdx (ix2 p q) ((ValueIdx.contrEquiv1 dot_S1024x256_S512x256_S1024x512_1_1_0_0_n_n 256 rfl rfl).symm k) = ix2 q k := funext fun a => Fin.ext (by
    match a with
    | ⟨0, _⟩ => exact rhs_pay6_0 _ _
    | ⟨1, _⟩ => exact (rhs_pay6_1 _ _).trans hk)
  rw [el, er]

/-- The similarity payload at (p, q): the inner product (the change of format is the identity on the extended reals),
    scaled by gamma and clipped below by lo and above by hi. -/
theorem pay6_apply (x0 : Vec Ideal S1024x256 .f32) (x1 : Vec Ideal S512x256 .f32) (p : Fin 1024) (q : Fin 512) :
    k0_pay6 (F := Ideal) x0 x1 (ix2 p q) = tsim x0 x1 p q := by
  unfold k0_pay6 tsim
  show min (Ideal.ofBits .f32 0x41800000#32) (max (Ideal.ofBits .f32 0xC1800000#32)
    (matmul dot_S1024x256_S512x256_S1024x512_1_1_0_0_n_n none (truncf .bf16 x0 bitsLt_bf16_f32) (truncf .bf16 x1 bitsLt_bf16_f32)
      (constant (F := Ideal) S1024x512 .f32 0x00000000#32) (ix2 p q) * Ideal.ofBits .f32 0x3A83126F#32)) = _
  rw [gram_apply]
  rfl

/-- The exponential payload at (p, q): exp of zero minus the similarity, and on the extended reals 0 - x = -x. -/
theorem pay10_apply (x0 : Vec Ideal S1024x256 .f32) (x1 : Vec Ideal S512x256 .f32) (p : Fin 1024) (q : Fin 512) :
    k0_pay10 (F := Ideal) x0 x1 (ix2 p q) = Ideal.exp (-(tsim x0 x1 p q)) := by
  unfold k0_pay10
  show Ideal.exp (Ideal.ofBits .f32 0x00000000#32 - k0_pay6 (F := Ideal) x0 x1 (ix2 p q)) = _
  rw [pay6_apply, Ideal.ofBits_zero_f32, zero_sub]

/-- The splat of the zero word reads 0 everywhere. -/
theorem pay11_apply (p : Fin 1024) (q : Fin 512) : k0_pay11 (F := Ideal) (ix2 p q) = 0 := by
  unfold k0_pay11
  exact Ideal.ofBits_zero_f32

/-- The reset value of the positive accumulator: the zero splat, recast to its own shape. -/
theorem pay4_apply (p : Fin 1024) : k0_pay4 (F := Ideal) (ix2 p (0 : Fin 1)) = 0 := by
  unfold k0_pay4
  show shapeCast S1024x1 (broadcast S1024x1 (Ideal.ofBits .f32 0x00000000#32)) shapeCasts_S1024x1_S1024x1 (ix2 p (0 : Fin 1)) = 0
  rw [shapeCast_self]
  exact Ideal.ofBits_zero_f32

/-- The reset value of the negative accumulator, likewise. -/
theorem pay5_apply (p : Fin 1024) : k0_pay5 (F := Ideal) (ix2 p (0 : Fin 1)) = 0 := by
  unfold k0_pay5
  show shapeCast S1024x1 (broadcast S1024x1 (Ideal.ofBits .f32 0x00000000#32)) shapeCasts_S1024x1_S1024x1 (ix2 p (0 : Fin 1)) = 0
  rw [shapeCast_self]
  exact Ideal.ofBits_zero_f32

/-- The row loss: the logarithm of the product of the two accumulated sums. -/
theorem pay3_apply (a b : Vec Ideal S1024x1 .f32) (p : Fin 1024) :
    k0_pay3 (F := Ideal) a b (ix2 p (0 : Fin 1)) = Ideal.log (a (ix2 p (0 : Fin 1)) * b (ix2 p (0 : Fin 1))) := rfl

/-! ## The label mask and the diagonal mask -/

/-- A column [1024, 1] broadcast along axis 1 reads, at (p, q), the column at p. -/
theorem bcast_col_apply {α : Type} (v : S1024x1.Idx → α) (p : Fin 1024) (q : Fin 512) :
    broadcastTo S1024x512 v broadcasts_S1024x1_S1024x512 (ix2 p q) = v (ix2 p (0 : Fin 1)) := by
  refine broadcastTo_apply v broadcasts_S1024x1_S1024x512 (ix2 p q) (ix2 p (0 : Fin 1)) fun ax => ?_
  match ax with
  | ⟨0, _⟩ => rfl
  | ⟨1, _⟩ => rfl

/-- A row [1, 512] broadcast along axis 0 reads, at (p, q), the row at q. -/
theorem bcast_row_apply {α : Type} (v : S1x512.Idx → α) (p : Fin 1024) (q : Fin 512) :
    broadcastTo S1024x512 v broadcasts_S1x512_S1024x512 (ix2 p q) = v (ix2 (0 : Fin 1) q) :=
  broadcastTo_1b_ab_apply v broadcasts_S1x512_S1024x512 p q

/-- Equality of two words as a one-bit word. -/
theorem cmpi_eq_ite (a b : BitVec 32) : IntOp.cmpi .eq a b = if a = b then 1#1 else 0#1 := by
  unfold IntOp.cmpi
  by_cases h : a = b
  · subst h; simp
  · rw [if_neg h, show (a == b) = false from beq_eq_false_iff_ne.mpr h]; rfl

/-- Inequality of two words as a one-bit word. -/
theorem cmpi_ne_ite (a b : BitVec 32) : IntOp.cmpi .ne a b = if a ≠ b then 1#1 else 0#1 := by
  unfold IntOp.cmpi
  by_cases h : a = b
  · subst h; simp
  · rw [if_pos h, show (a != b) = true from bne_iff_ne.mpr h]; rfl

/-- The conjunction of two one-bit truth values. -/
theorem andi_ite (P Q : Prop) [Decidable P] [Decidable Q] :
    IntOp.andi (if P then 1#1 else 0#1) (if Q then 1#1 else 0#1) = if P ∧ Q then 1#1 else 0#1 := by
  unfold IntOp.andi
  by_cases hP : P <;> by_cases hQ : Q <;> simp [hP, hQ]

/-- The negation of a one-bit truth value: exclusive or with the set bit. -/
theorem xori_one_ite (P : Prop) [Decidable P] :
    IntOp.xori (if P then 1#1 else 0#1) 1#1 = if P then 0#1 else 1#1 := by
  unfold IntOp.xori
  by_cases hP : P <;> simp [hP]

/-- Global row and column numbers stay below 8192, so the 32-bit sums do not wrap: the words are equal exactly
    when the numbers are. -/
theorem word_eq_iff (a b p q : Nat) (ha : a < 8) (hb : b < 16) (hp : p < 1024) (hq : q < 512) :
    BitVec.ofNat 32 p + BitVec.ofNat 32 a * 1024#32 = BitVec.ofNat 32 q + BitVec.ofNat 32 b * 512#32
      ↔ a * 1024 + p = b * 512 + q := by
  rw [← BitVec.toNat_inj]
  simp only [BitVec.toNat_add, BitVec.toNat_mul, BitVec.toNat_ofNat]
  omega

/-- The label mask at (p, q): the label of row p against the label of column q. -/
theorem pay7_apply (x2 : Vec Ideal S1024x1 .i32) (x3 : Vec Ideal S1x512 .i32) (p : Fin 1024) (q : Fin 512) :
    k0_pay7 (F := Ideal) x2 x3 (ix2 p q) = if same x2 x3 p q then 1#1 else 0#1 := by
  unfold k0_pay7
  show IntOp.cmpi .eq
      (broadcastTo S1024x512 (shapeCast S1024x1 x2 shapeCasts_S1024x1_S1024x1) broadcasts_S1024x1_S1024x512 (ix2 p q))
      (broadcastTo S1024x512 (shapeCast S1x512 x3 shapeCasts_S1x512_S1x512) broadcasts_S1x512_S1024x512 (ix2 p q)) = _
  rw [bcast_col_apply, bcast_row_apply, shapeCast_self, shapeCast_self, cmpi_eq_ite]
  rfl

/-- The positive mask at (p, q): same label, and not the diagonal entry of the whole matrix. -/
theorem pay8_apply (i : grid0.Coords) (x2 : Vec Ideal S1024x1 .i32) (x3 : Vec Ideal S1x512 .i32) (p : Fin 1024) (q : Fin 512) :
    k0_pay8 (F := Ideal) i x2 x3 (ix2 p q) = if same x2 x3 p q ∧ offDiag i p q then 1#1 else 0#1 := by
  unfold k0_pay8
  show IntOp.andi (k0_pay7 (F := Ideal) x2 x3 (ix2 p q)) (IntOp.cmpi .ne
      (broadcastTo S1024x512 (addi (iota .tc S1024x1 32 [0] iota_S1024x1_d0_w32)
        (broadcast S1024x1 (Scalar.muli (BitVec.ofNat 32 (i 0).val) 1024#32))) broadcasts_S1024x1_S1024x512 (ix2 p q))
      (broadcastTo S1024x512 (addi (iota .tc S1x512 32 [1] iota_S1x512_d1_w32)
        (broadcast S1x512 (Scalar.muli (BitVec.ofNat 32 (i 1).val) 512#32))) broadcasts_S1x512_S1024x512 (ix2 p q))) = _
  rw [bcast_col_apply, bcast_row_apply, pay7_apply]
  show IntOp.andi _ (IntOp.cmpi .ne
      (iota .tc S1024x1 32 [0] iota_S1024x1_d0_w32 (ix2 p (0 : Fin 1)) + BitVec.ofNat 32 (i 0).val * 1024#32)
      (iota .tc S1x512 32 [1] iota_S1x512_d1_w32 (ix2 (0 : Fin 1) q) + BitVec.ofNat 32 (i 1).val * 512#32)) = _
  rw [iota_single_apply, iota_single_apply, cmpi_ne_ite, andi_ite]
  have hw := word_eq_iff (i 0).val (i 1).val p.val q.val (i 0).isLt (i 1).isLt p.isLt q.isLt
  show (if same x2 x3 p q ∧ BitVec.ofNat 32 p.val + BitVec.ofNat 32 (i 0).val * 1024#32
      ≠ BitVec.ofNat 32 q.val + BitVec.ofNat 32 (i 1).val * 512#32 then 1#1 else 0#1) = _
  unfold offDiag
  by_cases hs : same x2 x3 p q
  · by_cases hd : (i 0).val * 1024 + p.val = (i 1).val * 512 + q.val
    · rw [if_neg (fun h => h.2 (hw.mpr hd)), if_neg (fun h => h.2 hd)]
    · rw [if_pos ⟨hs, fun h => hd (hw.mp h)⟩, if_pos ⟨hs, hd⟩]
  · rw [if_neg (fun h => hs h.1), if_neg (fun h => hs h.1)]

/-- The negative mask at (p, q): the labels differ. -/
theorem pay9_apply (x2 : Vec Ideal S1024x1 .i32) (x3 : Vec Ideal S1x512 .i32) (p : Fin 1024) (q : Fin 512) :
    k0_pay9 (F := Ideal) x2 x3 (ix2 p q) = if same x2 x3 p q then 0#1 else 1#1 := by
  unfold k0_pay9
  show IntOp.xori (k0_pay7 (F := Ideal) x2 x3 (ix2 p q)) 1#1 = _
  rw [pay7_apply, xori_one_ite]

/-! ## The lane sums and the accumulator updates -/

/-- A vector [1024] recast to a column [1024, 1] reads, at (p, 0), the vector at p. -/
theorem cast_col_apply {α : Type} (v : S1024.Idx → α) (p : Fin 1024) :
    shapeCast S1024x1 v shapeCasts_S1024_S1024x1 (ix2 p (0 : Fin 1)) = v (ix1 p) :=
  shapeCast_apply v shapeCasts_S1024_S1024x1 _ _ (by
    rw [Shape.rowMajor_val_one, Shape.rowMajor_val_two]
    show p.val = p.val * 1 + 0
    omega)

/-- The sum along axis 1 of a [1024, 512] array, from the zero word, reads at p the sum over the 512 lanes of row p. -/
theorem lane_sum_apply (v : FVec Ideal S1024x512 .f32) (hφ : FKind.Formats .f32)
    (hacc : (0x00000000#32 : BitVec 32) = FKind.add.neutral .f32 hφ) (p : Fin 1024) :
    multiReduction (F := Ideal) .add [1] S1024 v 0x00000000#32 reduces_S1024x512_S1024 hφ hacc (ix1 p)
      = ∑ q : Fin 512, v (ix2 p q) := by
  refine (Ideal.multiReduction_add_single v 0x00000000#32 reduces_S1024x512_S1024 hφ hacc (ix1 p)).trans ?_
  show ∑ q : Fin 512, v (reduces_S1024x512_S1024.lift (ix1 p) q) = _
  refine Finset.sum_congr rfl fun q _ => congrArg v (funext fun a => Fin.ext ?_)
  match a with
  | ⟨0, _⟩ => rfl
  | ⟨1, _⟩ => rfl

/-- The positive accumulator's update over any mask and any two arrays: the carried column plus, per row, the sum
    over the lanes of the selected entries. -/
theorem pay1_gen (m : IVec S1024x512 1) (e z : FVec Ideal S1024x512 .f32) (s : Vec Ideal S1024x1 .f32) (p : Fin 1024) :
    k0_pay1 (F := Ideal) m e z s (ix2 p (0 : Fin 1))
      = s (ix2 p (0 : Fin 1)) + ∑ q : Fin 512, Scalar.select (m (ix2 p q)) (e (ix2 p q)) (z (ix2 p q)) := by
  unfold k0_pay1
  show shapeCast S1024x1 (addf s (shapeCast S1024x1
      (multiReduction (F := Ideal) .add [1] S1024 (select m e z) 0x00000000#32 reduces_S1024x512_S1024 (.inl rfl) rfl)
      shapeCasts_S1024_S1024x1)) shapeCasts_S1024x1_S1024x1 (ix2 p (0 : Fin 1)) = _
  rw [shapeCast_self]
  show s (ix2 p (0 : Fin 1)) + shapeCast S1024x1
      (multiReduction (F := Ideal) .add [1] S1024 (select m e z) 0x00000000#32 reduces_S1024x512_S1024 (.inl rfl) rfl)
      shapeCasts_S1024_S1024x1 (ix2 p (0 : Fin 1)) = _
  rw [cast_col_apply]
  exact congrArg (s (ix2 p (0 : Fin 1)) + ·) (lane_sum_apply (select m e z) (.inl rfl) rfl p)

/-- The positive accumulator's update: the carried column plus, per row, the sum over the tile's columns of
    exp (-tsim) where the labels agree off the diagonal, and of 0 elsewhere. -/
theorem pay1_apply (i : grid0.Coords) (x0 : Vec Ideal S1024x256 .f32) (x1 : Vec Ideal S512x256 .f32)
    (x2 : Vec Ideal S1024x1 .i32) (x3 : Vec Ideal S1x512 .i32) (s : Vec Ideal S1024x1 .f32) (p : Fin 1024) :
    k0_pay1 (F := Ideal) (k0_pay8 (F := Ideal) i x2 x3) (k0_pay10 (F := Ideal) x0 x1) (k0_pay11 (F := Ideal)) s (ix2 p (0 : Fin 1))
      = s (ix2 p (0 : Fin 1)) + ∑ q : Fin 512, (if same x2 x3 p q ∧ offDiag i p q then Ideal.exp (-(tsim x0 x1 p q)) else 0) := by
  refine (pay1_gen _ _ _ s p).trans (congrArg (s (ix2 p (0 : Fin 1)) + ·) (Finset.sum_congr rfl fun q _ => ?_))
  rw [pay8_apply, pay10_apply, pay11_apply]
  by_cases h : same x2 x3 p q ∧ offDiag i p q
  · rw [if_pos h, if_pos h]; exact select_one _ _
  · rw [if_neg h, if_neg h]; exact select_zero _ _

/-- The negative accumulator's update over any mask and any array: the carried column plus, per row, the sum over
    the lanes of the exponential where the mask is set and of the zero word's value elsewhere. -/
theorem pay2_gen (c : FVec Ideal S1024x512 .f32) (m : IVec S1024x512 1) (s : Vec Ideal S1024x1 .f32) (p : Fin 1024) :
    k0_pay2 (F := Ideal) c m s (ix2 p (0 : Fin 1))
      = s (ix2 p (0 : Fin 1)) + ∑ q : Fin 512, Scalar.select (m (ix2 p q)) (Ideal.exp (c (ix2 p q))) (Ideal.ofBits .f32 0x00000000#32) := by
  unfold k0_pay2
  show shapeCast S1024x1 (addf s (shapeCast S1024x1
      (multiReduction (F := Ideal) .add [1] S1024 (select m (exp c) (broadcast S1024x512 (Ideal.ofBits .f32 0x00000000#32)))
        0x00000000#32 reduces_S1024x512_S1024 (.inl rfl) rfl)
      shapeCasts_S1024_S1024x1)) shapeCasts_S1024x1_S1024x1 (ix2 p (0 : Fin 1)) = _
  rw [shapeCast_self]
  show s (ix2 p (0 : Fin 1)) + shapeCast S1024x1
      (multiReduction (F := Ideal) .add [1] S1024 (select m (exp c) (broadcast S1024x512 (Ideal.ofBits .f32 0x00000000#32)))
        0x00000000#32 reduces_S1024x512_S1024 (.inl rfl) rfl)
      shapeCasts_S1024_S1024x1 (ix2 p (0 : Fin 1)) = _
  rw [cast_col_apply]
  exact congrArg (s (ix2 p (0 : Fin 1)) + ·)
    (lane_sum_apply (select m (exp c) (broadcast S1024x512 (Ideal.ofBits .f32 0x00000000#32))) (.inl rfl) rfl p)

/-- The negative accumulator's update: the carried column plus, per row, the sum over the tile's columns of
    exp tsim where the labels differ, and of 0 where they agree. -/
theorem pay2_apply (x0 : Vec Ideal S1024x256 .f32) (x1 : Vec Ideal S512x256 .f32)
    (x2 : Vec Ideal S1024x1 .i32) (x3 : Vec Ideal S1x512 .i32) (s : Vec Ideal S1024x1 .f32) (p : Fin 1024) :
    k0_pay2 (F := Ideal) (k0_pay6 (F := Ideal) x0 x1) (k0_pay9 (F := Ideal) x2 x3) s (ix2 p (0 : Fin 1))
      = s (ix2 p (0 : Fin 1)) + ∑ q : Fin 512, (if same x2 x3 p q then 0 else Ideal.exp (tsim x0 x1 p q)) := by
  refine (pay2_gen _ _ s p).trans (congrArg (s (ix2 p (0 : Fin 1)) + ·) (Finset.sum_congr rfl fun q _ => ?_))
  rw [pay9_apply, pay6_apply]
  by_cases h : same x2 x3 p q
  · rw [if_pos h, if_pos h]; exact (select_zero _ _).trans Ideal.ofBits_zero_f32
  · rw [if_neg h, if_neg h]; exact select_one _ _

end Cert.KernelIdeal.PayIdx

end
-- ==== Proof.KIAccum.lean ====
/-
  The accumulation of the loss kernel, at the extended reals: what the two row accumulators hold after every grid
  point, and what the output block holds at a last tile.

  Point t = 16 i + j of the 8 x 16 grid works on row block i (rows 1024 i … 1024 i + 1023 of the matrix) and on
  column tile j (rows 512 j … 512 j + 511 of the same matrix, read as columns of the similarity matrix). Its four
  blocks are restrictions of the whole arrays: a block's entry sits, on each axis, at block index x block size +
  its own coordinate; the two label blocks come from the label vector recast as a column and as a row, which read
  label r at (r, 0) and at (0, r). So for row p of the block and column q of the tile, with r = 1024 i + p and
  c' = 512 j + q: the clipped scaled inner product is sim r c', "same label" is tg r = tg c', "off the diagonal"
  is r ≠ c', and the two masked exponentials the body adds up are posTerm r c' and negTerm r c'.

  THE INVARIANT, by induction along the points: after point t the positive accumulator's row p holds the sum of
  posTerm r c' over the columns c' < 512 (j + 1), the negative one the same of negTerm. At j = 0 the body resets
  the accumulators to 0, the neutral element of the extended reals' addition, so every row block starts afresh; at
  j > 0 point t - 1 has the same row block and tile j - 1, and the body adds tile j's 512 terms. Only the
  commutative-monoid laws of addition are used: no entry needs to be finite. At j = 15 the 16 tiles are all 8192
  columns, the partial sums are posSum r and negSum r, and the output block's row p, the logarithm of the product
  of the two accumulators, is rowLoss r.
-/
import proofs.«143555_j26147760898823_1_alg».proof.Proof.KIData
import proofs.«143555_j26147760898823_1_alg».proof.Proof.KIPieceVal
import proofs.«143555_j26147760898823_1_alg».proof.Proof.KIPayIdx
import proofs.«143555_j26147760898823_1_alg».proof.Proof.Spec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.KernelIdeal.PayIdx
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The input matrix and the labels on a core, as functions of literal index types. -/
abbrev xOf (c : Dev nD) : Cert.Spec.SX.Idx → EReal := m ((c.tc : Thread nD τ).loc main_arg0)
abbrev tgOf (c : Dev nD) : Cert.Spec.ST.Idx → BitVec 32 := m ((c.tc : Thread nD τ).loc main_arg1)

/-! ## The coordinates of a point -/

theorem coords0 : ∀ t : Fin cfg0.N, (grid0.coords t 0).val = t.val / 16 :=
  (by decide +kernel : ∀ t : Fin grid0.N, (grid0.coords t 0).val = t.val / 16)
theorem coords1 : ∀ t : Fin cfg0.N, (grid0.coords t 1).val = t.val % 16 :=
  (by decide +kernel : ∀ t : Fin grid0.N, (grid0.coords t 1).val = t.val % 16)

/-- The block indices of the four input windows at a point. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-! ## The four blocks of a point, at their literal types -/

abbrev rowBlk (c : Dev nD) (t : Fin cfg0.N) : Vec Ideal S1024x256 .f32 := iblk m c 0 t
abbrev colBlk (c : Dev nD) (t : Fin cfg0.N) : Vec Ideal S512x256 .f32 := iblk m c 1 t
abbrev rowLab (c : Dev nD) (t : Fin cfg0.N) : Vec Ideal S1024x1 .i32 := iblk m c 2 t
abbrev colLab (c : Dev nD) (t : Fin cfg0.N) : Vec Ideal S1x512 .i32 := iblk m c 3 t

theorem rowBlk_apply (c : Dev nD) (t : Fin cfg0.N) (p : Fin 1024) (k : Fin 256)
    (hr : 1024 * (t.val / 16) + p.val < 8192) :
    rowBlk m c t (ix2 p k) = xOf m c (ix2 ⟨1024 * (t.val / 16) + p.val, hr⟩ k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 1024 + 1 * p.val = 1024 * (t.val / 16) + p.val; omega
  | ⟨1, _⟩ => show win0_0.index t (1 : Fin 2) * 256 + 1 * k.val = k.val; omega

theorem colBlk_apply (c : Dev nD) (t : Fin cfg0.N) (q : Fin 512) (k : Fin 256)
    (hr : 512 * (t.val % 16) + q.val < 8192) :
    colBlk m c t (ix2 q k) = xOf m c (ix2 ⟨512 * (t.val % 16) + q.val, hr⟩ k) := by
  show V m c main_arg0 (((cfg0.win 1).blk t).view.emb (ix2 q k)) = _
  rw [V_main_arg0]
  refine congrArg _ (funext fun a => Fin.ext ?_)
  obtain ⟨-, -, e0, e1, -⟩ := idx_facts t
  match a with
  | ⟨0, _⟩ => show win0_1.index t (0 : Fin 2) * 512 + 1 * q.val = 512 * (t.val % 16) + q.val; omega
  | ⟨1, _⟩ => show win0_1.index t (1 : Fin 2) * 256 + 1 * k.val = k.val; omega

theorem rowLab_apply0 (c : Dev nD) (t : Fin cfg0.N) (p : Fin 1024)
    (hr : 1024 * (t.val / 16) + p.val < 8192) :
    rowLab m c t (ix2 p (0 : Fin 1)) = (V m c main_v0 : S8192x1.Idx → BitVec 32) (ix2 ⟨1024 * (t.val / 16) + p.val, hr⟩ (0 : Fin 1)) := by
  show V m c main_v0 (((cfg0.win 2).blk t).view.emb (ix2 p (0 : Fin 1))) = _
  refine congrArg _ (funext fun a => Fin.ext ?_)
  obtain ⟨-, -, -, -, e0, e1, -⟩ := idx_facts t
  match a with
  | ⟨0, _⟩ => show win0_2.index t (0 : Fin 2) * 1024 + 1 * p.val = 1024 * (t.val / 16) + p.val; omega
  | ⟨1, _⟩ => show win0_2.index t (1 : Fin 2) * 1 + 1 * 0 = 0; omega

theorem colLab_apply0 (c : Dev nD) (t : Fin cfg0.N) (q : Fin 512)
    (hr : 512 * (t.val % 16) + q.val < 8192) :
    colLab m c t (ix2 (0 : Fin 1) q) = (V m c main_v1 : S1x8192.Idx → BitVec 32) (ix2 (0 : Fin 1) ⟨512 * (t.val % 16) + q.val, hr⟩) := by
  show V m c main_v1 (((cfg0.win 3).blk t).view.emb (ix2 (0 : Fin 1) q)) = _
  refine congrArg _ (funext fun a => Fin.ext ?_)
  obtain ⟨-, -, -, -, -, -, e0, e1⟩ := idx_facts t
  match a with
  | ⟨0, _⟩ => show win0_3.index t (0 : Fin 2) * 1 + 1 * 0 = 0; omega
  | ⟨1, _⟩ => show win0_3.index t (1 : Fin 2) * 512 + 1 * q.val = 512 * (t.val % 16) + q.val; omega

theorem V_main_v0_eq (c : Dev nD) :
    (V m c main_v0 : S8192x1.Idx → BitVec 32) = shapeCast S8192x1 (tgOf m c) shapeCasts_S8192_S8192x1 := by
  dsimp only [V, V0]; simp only [hostOps0, List.flatten_cons, List.flatten_nil, List.append_nil]; after_results
  rfl

theorem V_main_v1_eq (c : Dev nD) :
    (V m c main_v1 : S1x8192.Idx → BitVec 32) = shapeCast S1x8192 (tgOf m c) shapeCasts_S8192_S1x8192 := by
  dsimp only [V, V0]; simp only [hostOps0, List.flatten_cons, List.flatten_nil, List.append_nil]; after_results
  rfl

/-- The labels as a column: entry (r, 0) is label r. -/
theorem V_main_v0_apply (c : Dev nD) (r : Fin 8192) :
    (V m c main_v0 : S8192x1.Idx → BitVec 32) (ix2 r (0 : Fin 1)) = tgOf m c (ix1 r) := by
  rw [V_main_v0_eq]
  exact shapeCast_apply _ _ _ _ (by
    rw [Shape.rowMajor_val_one, Shape.rowMajor_val_two]
    show r.val = r.val * 1 + 0
    omega)

/-- The labels as a row: entry (0, r) is label r. -/
theorem V_main_v1_apply (c : Dev nD) (r : Fin 8192) :
    (V m c main_v1 : S1x8192.Idx → BitVec 32) (ix2 (0 : Fin 1) r) = tgOf m c (ix1 r) := by
  rw [V_main_v1_eq]
  exact shapeCast_apply _ _ _ _ (by
    rw [Shape.rowMajor_val_one, Shape.rowMajor_val_two]
    show r.val = 0 * 8192 + r.val
    omega)

theorem rowLab_apply (c : Dev nD) (t : Fin cfg0.N) (p : Fin 1024)
    (hr : 1024 * (t.val / 16) + p.val < 8192) :
    rowLab m c t (ix2 p (0 : Fin 1)) = tgOf m c (ix1 ⟨1024 * (t.val / 16) + p.val, hr⟩) :=
  (rowLab_apply0 m c t p hr).trans (V_main_v0_apply m c _)

theorem colLab_apply (c : Dev nD) (t : Fin cfg0.N) (q : Fin 512)
    (hr : 512 * (t.val % 16) + q.val < 8192) :
    colLab m c t (ix2 (0 : Fin 1) q) = tgOf m c (ix1 ⟨512 * (t.val % 16) + q.val, hr⟩) :=
  (colLab_apply0 m c t q hr).trans (V_main_v1_apply m c _)

/-! ## The tile's contribution is the specification's -/

/-- Row p of row block t / 16, and column q of column tile t % 16, are rows of the whole matrix. -/
theorem row_lt (t : Fin cfg0.N) (p : Fin 1024) : 1024 * (t.val / 16) + p.val < 8192 := by
  have := t.isLt; have hN : cfg0.N = 128 := N_0; omega
theorem col_lt (t : Fin cfg0.N) (q : Fin 512) : 512 * (t.val % 16) + q.val < 8192 := by omega

theorem tsim_eq (c : Dev nD) (t : Fin cfg0.N) (p : Fin 1024) (q : Fin 512) (r cc : Fin 8192)
    (hr : r.val = 1024 * (t.val / 16) + p.val) (hc : cc.val = 512 * (t.val % 16) + q.val) :
    tsim (rowBlk m c t) (colBlk m c t) p q = Cert.Spec.sim (xOf m c) r cc := by
  obtain rfl : r = ⟨1024 * (t.val / 16) + p.val, row_lt t p⟩ := Fin.ext hr
  obtain rfl : cc = ⟨512 * (t.val % 16) + q.val, col_lt t q⟩ := Fin.ext hc
  have e : (∑ k : Fin 256, rowBlk m c t (ix2 p k) * colBlk m c t (ix2 q k))
      = ∑ k : Fin 256, xOf m c (ix2 ⟨1024 * (t.val / 16) + p.val, row_lt t p⟩ k) * xOf m c (ix2 ⟨512 * (t.val % 16) + q.val, col_lt t q⟩ k) :=
    Finset.sum_congr rfl fun k _ => by rw [rowBlk_apply m c t p k, colBlk_apply m c t q k]
  unfold tsim Cert.Spec.sim Cert.Spec.dot
  rw [e]

theorem same_iff (c : Dev nD) (t : Fin cfg0.N) (p : Fin 1024) (q : Fin 512) (r cc : Fin 8192)
    (hr : r.val = 1024 * (t.val / 16) + p.val) (hc : cc.val = 512 * (t.val % 16) + q.val) :
    same (rowLab m c t) (colLab m c t) p q ↔ tgOf m c (ix1 r) = tgOf m c (ix1 cc) := by
  obtain rfl : r = ⟨1024 * (t.val / 16) + p.val, row_lt t p⟩ := Fin.ext hr
  obtain rfl : cc = ⟨512 * (t.val % 16) + q.val, col_lt t q⟩ := Fin.ext hc
  unfold same
  rw [rowLab_apply m c t p, colLab_apply m c t q]

theorem offDiag_iff (t : Fin cfg0.N) (p : Fin 1024) (q : Fin 512) (r cc : Fin 8192)
    (hr : r.val = 1024 * (t.val / 16) + p.val) (hc : cc.val = 512 * (t.val % 16) + q.val) :
    offDiag (grid0.coords t) p q ↔ r ≠ cc := by
  unfold offDiag
  rw [coords0 t, coords1 t]
  constructor
  · intro h e
    have := congrArg Fin.val e
    exact h (by omega)
  · intro h e
    exact h (Fin.ext (by omega))

/-- One column's term of the positive update is the specification's positive term. -/
theorem posTile_eq (c : Dev nD) (t : Fin cfg0.N) (p : Fin 1024) (q : Fin 512) (r cc : Fin 8192)
    (hr : r.val = 1024 * (t.val / 16) + p.val) (hc : cc.val = 512 * (t.val % 16) + q.val) :
    (if same (rowLab m c t) (colLab m c t) p q ∧ offDiag (grid0.coords t) p q
      then Ideal.exp (-(tsim (rowBlk m c t) (colBlk m c t) p q)) else 0)
      = Cert.Spec.posTerm (xOf m c) (tgOf m c) r cc := by
  unfold Cert.Spec.posTerm
  rw [tsim_eq m c t p q r cc hr hc]
  exact if_congr (and_congr (same_iff m c t p q r cc hr hc) (offDiag_iff t p q r cc hr hc)) rfl rfl

/-- One column's term of the negative update is the specification's negative term. -/
theorem negTile_eq (c : Dev nD) (t : Fin cfg0.N) (p : Fin 1024) (q : Fin 512) (r cc : Fin 8192)
    (hr : r.val = 1024 * (t.val / 16) + p.val) (hc : cc.val = 512 * (t.val % 16) + q.val) :
    (if same (rowLab m c t) (colLab m c t) p q then 0 else Ideal.exp (tsim (rowBlk m c t) (colBlk m c t) p q))
      = Cert.Spec.negTerm (xOf m c) (tgOf m c) r cc := by
  unfold Cert.Spec.negTerm
  rw [tsim_eq m c t p q r cc hr hc]
  exact if_congr (same_iff m c t p q r cc hr hc) rfl rfl

/-! ## Partial row sums over the first tiles -/

/-- Column number n's positive term of row r; zero past the last column. -/
def posN (x : Cert.Spec.SX.Idx → EReal) (tg : Cert.Spec.ST.Idx → BitVec 32) (r : Fin 8192) (n : ℕ) : EReal :=
  if h : n < 8192 then Cert.Spec.posTerm x tg r ⟨n, h⟩ else 0
/-- Column number n's negative term of row r; zero past the last column. -/
def negN (x : Cert.Spec.SX.Idx → EReal) (tg : Cert.Spec.ST.Idx → BitVec 32) (r : Fin 8192) (n : ℕ) : EReal :=
  if h : n < 8192 then Cert.Spec.negTerm x tg r ⟨n, h⟩ else 0

/-- Row r's positive terms summed over the first j tiles of 512 columns. -/
def posPart (x : Cert.Spec.SX.Idx → EReal) (tg : Cert.Spec.ST.Idx → BitVec 32) (r : Fin 8192) (j : ℕ) : EReal :=
  ∑ n ∈ Finset.range (512 * j), posN x tg r n
/-- Row r's negative terms summed over the first j tiles of 512 columns. -/
def negPart (x : Cert.Spec.SX.Idx → EReal) (tg : Cert.Spec.ST.Idx → BitVec 32) (r : Fin 8192) (j : ℕ) : EReal :=
  ∑ n ∈ Finset.range (512 * j), negN x tg r n

/-- One more tile: the sum over the first j + 1 tiles is the sum over the first j plus tile j's 512 terms. -/
theorem tiles_succ (f : ℕ → EReal) (j : ℕ) :
    ∑ n ∈ Finset.range (512 * (j + 1)), f n = ∑ n ∈ Finset.range (512 * j), f n + ∑ q : Fin 512, f (512 * j + q.val) := by
  rw [show 512 * (j + 1) = 512 * j + 512 from by omega, Finset.sum_range_add]
  exact congrArg (∑ n ∈ Finset.range (512 * j), f n + ·) (Finset.sum_range fun n => f (512 * j + n))

theorem posPart_zero (x : Cert.Spec.SX.Idx → EReal) (tg : Cert.Spec.ST.Idx → BitVec 32) (r : Fin 8192) : posPart x tg r 0 = 0 := by
  unfold posPart; rw [Nat.mul_zero, Finset.sum_range_zero]
theorem negPart_zero (x : Cert.Spec.SX.Idx → EReal) (tg : Cert.Spec.ST.Idx → BitVec 32) (r : Fin 8192) : negPart x tg r 0 = 0 := by
  unfold negPart; rw [Nat.mul_zero, Finset.sum_range_zero]
theorem posPart_succ (x : Cert.Spec.SX.Idx → EReal) (tg : Cert.Spec.ST.Idx → BitVec 32) (r : Fin 8192) (j : ℕ) :
    posPart x tg r (j + 1) = posPart x tg r j + ∑ q : Fin 512, posN x tg r (512 * j + q.val) := tiles_succ _ j
theorem negPart_succ (x : Cert.Spec.SX.Idx → EReal) (tg : Cert.Spec.ST.Idx → BitVec 32) (r : Fin 8192) (j : ℕ) :
    negPart x tg r (j + 1) = negPart x tg r j + ∑ q : Fin 512, negN x tg r (512 * j + q.val) := tiles_succ _ j

/-- All sixteen tiles are the whole row. -/
theorem posPart_full (x : Cert.Spec.SX.Idx → EReal) (tg : Cert.Spec.ST.Idx → BitVec 32) (r : Fin 8192) :
    posPart x tg r (15 + 1) = Cert.Spec.posSum x tg r := by
  unfold posPart Cert.Spec.posSum
  rw [show 512 * (15 + 1) = 8192 from rfl, Finset.sum_range]
  exact Finset.sum_congr rfl fun n _ => by unfold posN; rw [dif_pos n.isLt]
theorem negPart_full (x : Cert.Spec.SX.Idx → EReal) (tg : Cert.Spec.ST.Idx → BitVec 32) (r : Fin 8192) :
    negPart x tg r (15 + 1) = Cert.Spec.negSum x tg r := by
  unfold negPart Cert.Spec.negSum
  rw [show 512 * (15 + 1) = 8192 from rfl, Finset.sum_range]
  exact Finset.sum_congr rfl fun n _ => by unfold negN; rw [dif_pos n.isLt]

/-! ## One point's update of the two accumulators -/

/-- The positive update at point t adds, in row p of its block, the row's positive terms over the tile's columns. -/
theorem pos_update (c : Dev nD) (t : Fin cfg0.N) (s : Vec Ideal S1024x1 .f32) (p : Fin 1024) (r : Fin 8192)
    (hr : r.val = 1024 * (t.val / 16) + p.val) :
    k0_pay1 (F := Ideal) (k0_pay8 (F := Ideal) (grid0.coords t) (rowLab m c t) (colLab m c t))
        (k0_pay10 (F := Ideal) (rowBlk m c t) (colBlk m c t)) (k0_pay11 (F := Ideal)) s (ix2 p (0 : Fin 1))
      = s (ix2 p (0 : Fin 1)) + ∑ q : Fin 512, posN (xOf m c) (tgOf m c) r (512 * (t.val % 16) + q.val) := by
  refine (pay1_apply (grid0.coords t) (rowBlk m c t) (colBlk m c t) (rowLab m c t) (colLab m c t) s p).trans ?_
  refine congrArg (s (ix2 p (0 : Fin 1)) + ·) (Finset.sum_congr rfl fun q _ => ?_)
  rw [posTile_eq m c t p q r ⟨512 * (t.val % 16) + q.val, col_lt t q⟩ hr rfl]
  unfold posN
  rw [dif_pos (col_lt t q)]

/-- The negative update at point t adds, in row p of its block, the row's negative terms over the tile's columns. -/
theorem neg_update (c : Dev nD) (t : Fin cfg0.N) (s : Vec Ideal S1024x1 .f32) (p : Fin 1024) (r : Fin 8192)
    (hr : r.val = 1024 * (t.val / 16) + p.val) :
    k0_pay2 (F := Ideal) (k0_pay6 (F := Ideal) (rowBlk m c t) (colBlk m c t))
        (k0_pay9 (F := Ideal) (rowLab m c t) (colLab m c t)) s (ix2 p (0 : Fin 1))
      = s (ix2 p (0 : Fin 1)) + ∑ q : Fin 512, negN (xOf m c) (tgOf m c) r (512 * (t.val % 16) + q.val) := by
  refine (pay2_apply (rowBlk m c t) (colBlk m c t) (rowLab m c t) (colLab m c t) s p).trans ?_
  refine congrArg (s (ix2 p (0 : Fin 1)) + ·) (Finset.sum_congr rfl fun q _ => ?_)
  rw [negTile_eq m c t p q r ⟨512 * (t.val % 16) + q.val, col_lt t q⟩ hr rfl]
  unfold negN
  rw [dif_pos (col_lt t q)]

/-! ## The accumulators from point to point -/

/-- After a first tile the accumulators hold the tile's sums added to the reset value. -/
theorem acc_first (c : Dev nD) (t : Fin cfg0.N) (h0 : t.val % 16 = 0) :
    (outsAt0 (F := Ideal) m c t.val t.isLt).2.1 = k0_pay1 (F := Ideal) (k0_pay8 (F := Ideal) (grid0.coords t) (rowLab m c t) (colLab m c t)) (k0_pay10 (F := Ideal) (rowBlk m c t) (colBlk m c t)) (k0_pay11 (F := Ideal)) (k0_pay4 (F := Ideal))
    ∧ (outsAt0 (F := Ideal) m c t.val t.isLt).2.2 = k0_pay2 (F := Ideal) (k0_pay6 (F := Ideal) (rowBlk m c t) (colBlk m c t)) (k0_pay9 (F := Ideal) (rowLab m c t) (colLab m c t)) (k0_pay5 (F := Ideal)) := by
  have h1 : ¬t.val % 16 = 15 := by omega
  rw [outsAt0_A m c t h0 h1]
  dsimp only
  exact ⟨sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- After any later tile they hold the tile's sums added to what the point before left. -/
theorem acc_later (c : Dev nD) (t : Fin cfg0.N) (h0 : ¬t.val % 16 = 0) :
    (outsAt0 (F := Ideal) m c t.val t.isLt).2.1 = k0_pay1 (F := Ideal) (k0_pay8 (F := Ideal) (grid0.coords t) (rowLab m c t) (colLab m c t)) (k0_pay10 (F := Ideal) (rowBlk m c t) (colBlk m c t)) (k0_pay11 (F := Ideal)) (outsAt0 (F := Ideal) m c (t.val - 1) (Nat.lt_of_le_of_lt (Nat.sub_le _ _) t.isLt)).2.1
    ∧ (outsAt0 (F := Ideal) m c t.val t.isLt).2.2 = k0_pay2 (F := Ideal) (k0_pay6 (F := Ideal) (rowBlk m c t) (colBlk m c t)) (k0_pay9 (F := Ideal) (rowLab m c t) (colLab m c t)) (outsAt0 (F := Ideal) m c (t.val - 1) (Nat.lt_of_le_of_lt (Nat.sub_le _ _) t.isLt)).2.2 := by
  by_cases h1 : t.val % 16 = 15
  · rw [outsAt0_C m c t h0 h1]
    dsimp only
    exact ⟨sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2,
      sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2⟩
  · rw [outsAt0_B m c t h0 h1]
    dsimp only
    exact ⟨sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2,
      sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2⟩

/-- THE INVARIANT: after the body at point t, in row p of its row block, the two accumulators hold the row's
    positive and negative terms summed over the columns of tiles 0 … t % 16. At a first tile the reset value 0
    is the neutral element; at a later tile the point before has the same row block and one tile fewer. -/
theorem acc_inv (c : Dev nD) : ∀ (n : ℕ) (t : Fin cfg0.N), t.val = n → ∀ (p : Fin 1024) (r : Fin 8192),
    r.val = 1024 * (t.val / 16) + p.val →
    (outsAt0 (F := Ideal) m c t.val t.isLt).2.1 (ix2 p (0 : Fin 1)) = posPart (xOf m c) (tgOf m c) r (t.val % 16 + 1)
    ∧ (outsAt0 (F := Ideal) m c t.val t.isLt).2.2 (ix2 p (0 : Fin 1)) = negPart (xOf m c) (tgOf m c) r (t.val % 16 + 1) := by
  have first : ∀ (t : Fin cfg0.N), t.val % 16 = 0 → ∀ (p : Fin 1024) (r : Fin 8192), r.val = 1024 * (t.val / 16) + p.val →
      (outsAt0 (F := Ideal) m c t.val t.isLt).2.1 (ix2 p (0 : Fin 1)) = posPart (xOf m c) (tgOf m c) r (t.val % 16 + 1)
      ∧ (outsAt0 (F := Ideal) m c t.val t.isLt).2.2 (ix2 p (0 : Fin 1)) = negPart (xOf m c) (tgOf m c) r (t.val % 16 + 1) := by
    intro t h0 p r hr
    obtain ⟨e1, e2⟩ := acc_first m c t h0
    rw [e1, e2, pos_update m c t _ p r hr, neg_update m c t _ p r hr, pay4_apply, pay5_apply, posPart_succ, negPart_succ, h0,
      posPart_zero, negPart_zero]
    exact ⟨rfl, rfl⟩
  intro n
  induction n with
  | zero =>
    intro t ht p r hr
    exact first t (by omega) p r hr
  | succ n ih =>
    intro t ht p r hr
    by_cases h0 : t.val % 16 = 0
    · exact first t h0 p r hr
    · obtain ⟨e1, e2⟩ := acc_later m c t h0
      obtain ⟨i1, i2⟩ := ih ⟨t.val - 1, Nat.lt_of_le_of_lt (Nat.sub_le _ _) t.isLt⟩ (by show t.val - 1 = n; omega) p r
        (by show r.val = 1024 * ((t.val - 1) / 16) + p.val; omega)
      have hj : t.val % 16 = (t.val - 1) % 16 + 1 := by omega
      have j1 : (outsAt0 (F := Ideal) m c (t.val - 1) (Nat.lt_of_le_of_lt (Nat.sub_le _ _) t.isLt)).2.1 (ix2 p (0 : Fin 1)) = posPart (xOf m c) (tgOf m c) r (t.val % 16) := by
        rw [hj]; exact i1
      have j2 : (outsAt0 (F := Ideal) m c (t.val - 1) (Nat.lt_of_le_of_lt (Nat.sub_le _ _) t.isLt)).2.2 (ix2 p (0 : Fin 1)) = negPart (xOf m c) (tgOf m c) r (t.val % 16) := by
        rw [hj]; exact i2
      rw [e1, e2, pos_update m c t _ p r hr, neg_update m c t _ p r hr, j1, j2, posPart_succ, negPart_succ]
      exact ⟨rfl, rfl⟩

/-! ## The output block at a last tile -/

/-- At a last tile the output block is the logarithm of the product of the two accumulators as the point leaves them. -/
theorem out_last_eq (c : Dev nD) (t : Fin cfg0.N) (h1 : t.val % 16 = 15) :
    (outsAt0 (F := Ideal) m c t.val t.isLt).1
      = k0_pay3 (F := Ideal) (outsAt0 (F := Ideal) m c t.val t.isLt).2.1 (outsAt0 (F := Ideal) m c t.val t.isLt).2.2 := by
  have h0 : ¬t.val % 16 = 0 := by omega
  rw [outsAt0_C m c t h0 h1]
  dsimp only
  rw [out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2,
    sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2,
    sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2]

/-- At a last tile, row p of the output block is the row loss of row 1024 (t / 16) + p of the whole matrix. -/
theorem out_at_last (c : Dev nD) (t : Fin cfg0.N) (h : t.val % 16 = 15) (p : Fin 1024) :
    (outsAt0 (F := Ideal) m c t.val t.isLt).1 (ix2 p (0 : Fin 1))
      = Cert.Spec.rowLoss (xOf m c) (tgOf m c) ⟨1024 * (t.val / 16) + p.val, by have := t.isLt; have hN : cfg0.N = 128 := N_0; omega⟩ := by
  obtain ⟨i1, i2⟩ := acc_inv m c t.val t rfl p ⟨1024 * (t.val / 16) + p.val, row_lt t p⟩ rfl
  rw [out_last_eq m c t h, pay3_apply, i1, i2, h, posPart_full, negPart_full]
  rfl

end Cert.KernelIdeal.HandValue

end
-- ==== Proof.KIFinal.lean ====
/-
  From the output window's blocks to the loss: the result array after all write-backs, and the mean.

  The grid has 8 x 16 points, point t = 16 i + j. The output window's block at t is rows 1024 i .. 1024 i + 1023 of
  the [8192, 1] array of row losses, and it is written back exactly at the last tile of each row block, j = 15. So
  eight write-backs happen, one per row block, their blocks tile the array, and row r is covered by the point
  16 (r / 1024) + 15. If what the staging buffer holds at each of those points is the rows' losses, every entry of the
  final array is its row's loss. The host then sums the array over both axes from zero and divides by the row count:
  a sum over the indices of an [n, 1] array is the sum over its rows, so the result is the mean of the rows' losses.
-/
import proofs.«143555_j26147760898823_1_alg».proof.Proof.KIData
import proofs.«143555_j26147760898823_1_alg».proof.Proof.Spec
import Idealize.ShloMosaic.Lib.Pipeline.Value
import Idealize.ShloMosaic.Lib.IdealHost
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! ## The output window's blocks -/

/-- The output window's block at point t = 16 i + j is row block i, column block 0, decided over the grid. -/
theorem outIndex_row : ∀ t : Fin cfg0.N, win0_4.index t (0 : Fin 2) = t.val / 16 :=
  (by decide +kernel : ∀ t : Fin grid0.N, win0_4.index t (0 : Fin 2) = t.val / 16)
theorem outIndex_col : ∀ t : Fin cfg0.N, win0_4.index t (1 : Fin 2) = 0 :=
  (by decide +kernel : ∀ t : Fin grid0.N, win0_4.index t (1 : Fin 2) = 0)

/-- An index of the [8192, 1] array is in point t's block iff each coordinate is in the block's range on its axis. -/
theorem mem_outBlk (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- The array of the rows' losses. -/
abbrev lossArr (x : Cert.Spec.SX.Idx → EReal) (tg : Cert.Spec.ST.Idx → BitVec 32) : S8192x1.Idx → EReal :=
  fun y => Cert.Spec.rowLoss x tg ⟨(y 0).val, (y 0).isLt⟩

/-- Row p of the block at point t sits at row 1024 (t / 16) + p of the array. -/
theorem lossArr_emb (x : Cert.Spec.SX.Idx → EReal) (tg : Cert.Spec.ST.Idx → BitVec 32) (t : Fin cfg0.N) (p : Fin 1024)
    (hr : 1024 * (t.val / 16) + p.val < 8192) :
    lossArr x tg (((cfg0.win 4).blk t).view.emb (ix2 p (0 : Fin 1))) = Cert.Spec.rowLoss x tg ⟨1024 * (t.val / 16) + p.val, hr⟩ := by
  refine congrArg (Cert.Spec.rowLoss x tg) (Fin.ext ?_)
  show win0_4.index t (0 : Fin 2) * 1024 + 1 * p.val = 1024 * (t.val / 16) + p.val
  rw [outIndex_row t]; omega

/-- Every row is in the block of the last tile of its row block: row r in that of the point 16 (r / 1024) + 15. -/
theorem covered (i : S8192x1.Idx) : ∃ t : Fin cfg0.N, (cfg0.win 4).flush t = true ∧ i ∈ ((cfg0.win 4).blk t).view.set := by
  have hN : cfg0.N = 128 := N_0
  have hi0 : (i 0).val < 8192 := (i 0).isLt
  have hi1 : (i 1).val < 1 := (i 1).isLt
  refine ⟨⟨16 * ((i 0).val / 1024) + 15, by omega⟩, (flush0_4 _).mpr (by show (16 * ((i 0).val / 1024) + 15) % 16 = 15; omega), ?_⟩
  rw [mem_outBlk]
  intro a
  match a with
  | ⟨0, _⟩ =>
    show win0_4.index _ (0 : Fin 2) * 1024 ≤ (i 0).val ∧ (i 0).val < win0_4.index _ (0 : Fin 2) * 1024 + 1024
    rw [outIndex_row]
    show (16 * ((i 0).val / 1024) + 15) / 16 * 1024 ≤ (i 0).val ∧ (i 0).val < (16 * ((i 0).val / 1024) + 15) / 16 * 1024 + 1024
    omega
  | ⟨1, _⟩ =>
    show win0_4.index _ (1 : Fin 2) * 1 ≤ (i 1).val ∧ (i 1).val < win0_4.index _ (1 : Fin 2) * 1 + 1
    rw [outIndex_col]; omega

/-! ## The result array -/

/-- For any proof data of the pipeline whose output buffer after the body at point t is outs t: if at every last
    tile outs t holds the losses of the rows of its row block, the array after all write-backs holds every row's loss. -/
theorem arrAt_of_blocks {c : Dev nD} (dat : Dat τ (Elt Ideal) Unit ℕ (UR sig nD τ) ℕ cfg0 c)
    (outs : Fin cfg0.N → Vec Ideal S1024x1 .f32) (hafter : ∀ t, dat.after 4 t = outs t)
    (x : Cert.Spec.SX.Idx → EReal) (tg : Cert.Spec.ST.Idx → BitVec 32)
    (hlast : ∀ (t : Fin cfg0.N) (h : t.val % 16 = 15) (p : Fin 1024),
      outs t (ix2 p (0 : Fin 1)) = Cert.Spec.rowLoss x tg ⟨1024 * (t.val / 16) + p.val, by have := t.isLt; have hN : cfg0.N = 128 := N_0; omega⟩) :
    dat.arrAt 4 cfg0.N = lossArr x tg := by
  refine dat.arrAt_eq_of_cover 4 (lossArr x tg) (fun t hf => ?_) covered
  have h15 : t.val % 16 = 15 := (flush0_4 t).mp hf
  show (cfg0.win 4).cut (grid0.coords t) (dat.after 4 t) = _
  rw [hafter t]
  funext y
  obtain ⟨p, q, rfl⟩ : ∃ (p : Fin 1024) (q : Fin 1), y = ix2 p q := ⟨y 0, y 1, eq_ix2 y⟩
  obtain rfl : q = 0 := Subsingleton.elim _ _
  show outs t (ix2 p (0 : Fin 1)) = lossArr x tg (((cfg0.win 4).blk t).view.emb (ix2 p (0 : Fin 1)))
  rw [hlast t h15 p, lossArr_emb]

/-- The kernel's two argument arrays on core c. -/
abbrev xIn (m : (ℓ : Loc nD τ sig) → Buf (Elt Ideal) ℓ) (c : Dev nD) : Cert.Spec.SX.Idx → EReal := m ((c.tc : Thread nD τ).loc main_arg0)
abbrev tgIn (m : (ℓ : Loc nD τ sig) → Buf (Elt Ideal) ℓ) (c : Dev nD) : Cert.Spec.ST.Idx → BitVec 32 := m ((c.tc : Thread nD τ).loc main_arg1)

/-- THE RESULT ARRAY AFTER ALL WRITE-BACKS: every entry is its row's loss, given that at each last tile the output
    buffer holds the losses of the rows of its row block. -/
theorem arrAt_out (m : (ℓ : Loc nD τ sig) → Buf (Elt Ideal) ℓ) (c : Dev nD)
    (hlast : ∀ (t : Fin cfg0.N) (h : t.val % 16 = 15) (p : Fin 1024),
      (outsAt0 (F := Ideal) m c t.val t.isLt).1 (ix2 p (0 : Fin 1))
        = Cert.Spec.rowLoss (xIn m c) (tgIn m c) ⟨1024 * (t.val / 16) + p.val, by have := t.isLt; have hN : cfg0.N = 128 := N_0; omega⟩) :
    (dats (F := Ideal) m 0 c).arrAt 4 cfg0.N = fun y : S8192x1.Idx => Cert.Spec.rowLoss (xIn m c) (tgIn m c) ⟨(y 0).val, (y 0).isLt⟩ :=
  arrAt_of_blocks (dats (F := Ideal) m 0 c) (fun t => (outsAt0 (F := Ideal) m c t.val t.isLt).1) (after0_4 m c) (xIn m c) (tgIn m c) hlast

/-! ## The mean -/

/-- A sum over the indices of an [n, 1] array is the sum over its rows: the second coordinate has one value. -/
theorem sum_column {n : Nat} (f : (⟨2, ![n, 1]⟩ : Shape).Idx → EReal) :
    ∑ y, f y = ∑ r : Fin n, f (ix2 r (0 : Fin 1)) := by
  rw [sum_idx2]
  exact Finset.sum_congr rfl fun r _ => Fintype.sum_unique fun b : Fin 1 => f (ix2 r b)

/-- THE MEAN: the host sums the [8192, 1] array of row losses over both axes from zero and divides by the row count. -/
theorem mean_eq (x : Cert.Spec.SX.Idx → EReal) (tg : Cert.Spec.ST.Idx → BitVec 32) (o : Vec Ideal S8192x1 .f32)
    (ho : ∀ y : S8192x1.Idx, o y = Cert.Spec.rowLoss x tg ⟨(y 0).val, (y 0).isLt⟩) :
    Host.divf (F := Ideal) (Host.reduceAdd (F := Ideal) o (constant (F := Ideal) S_ .f32 0x00000000#32) reducesTo_S8192x1_S_d0_1 h_S_)
        (constant (F := Ideal) S_ .f32 0x46000000#32) = fun _ => Cert.Spec.loss x tg := by
  funext j
  rw [hostDivf_apply, hostReduceAdd_apply, Ideal.hostReduceAdd_total reducesTo_S8192x1_S_d0_1 (fun b => b.elim0)]
  rw [constant_apply, constant_apply, Ideal.ofBits_zero_f32, zero_add]
  unfold Cert.Spec.loss
  refine congrArg (fun s => Ideal.div s Cert.Spec.nrows) ?_
  refine (sum_column (n := 8192) o).trans ?_
  exact Finset.sum_congr rfl fun r _ => ho (ix2 r (0 : Fin 1))

end Cert.KernelIdeal.HandValue

end
-- ==== Proof.RefIsSpec.lean ====
/-
  The reference program computes the specification's loss.

  At coordinates (r, c), with r and c below 8192: the contraction of row r of x against column c of the
  transposed x is the inner product of rows r and c; scaling by gamma, then the maximum with the lower and the
  minimum with the upper bound, is the clipped similarity; the comparison of the two broadcasts of the labels is
  "tg r = tg c"; the comparison of the row counter (plus the zero word) with the column counter is "r = c", because
  both counters are below 8192 and so their 32-bit words are equal only when the numbers are; the conjunction with
  the complement of the second is the positive mask and the complement of the first the negative mask; a select
  against the broadcast zero is the masked term; a row sum started from zero is the finite sum over the columns;
  the logarithm of the product of the two row sums is the row's loss; and the total sum over the one-axis index
  set, re-indexed by its coordinate, divided by the row count, is the mean.
-/
import proofs.«143555_j26147760898823_1_alg».proof.Proof.Gen.ReferenceIdeal.Read
import proofs.«143555_j26147760898823_1_alg».proof.Proof.Spec
import Idealize.ShloMosaic.Lib.ValueIdxRank1

noncomputable section

namespace Cert.RefSide

open Cert.ReferenceIdeal Cert.ReferenceIdeal.Read Idealize.ShloMosaic Idealize.ShloMosaic.ValueIdx

/-! ## Words -/

/-- An equality comparison of two words is the bit of their equality. -/
theorem cmpi_eq_ite {w : Nat} (a b : BitVec w) :
    IntOp.cmpi .eq a b = if a = b then 1#1 else 0#1 := by
  unfold IntOp.cmpi
  by_cases h : a = b
  · rw [if_pos h]; simp [h]
  · rw [if_neg h, beq_eq_false_iff_ne.mpr h]; rfl

/-- Two numbers below 8192 have the same 32-bit word only when they are equal. -/
theorem word_eq_iff (r c : Fin 8192) : BitVec.ofNat 32 r.val = BitVec.ofNat 32 c.val ↔ r = c := by
  constructor
  · intro h
    have h' := congrArg BitVec.toNat h
    rw [BitVec.toNat_ofNat, BitVec.toNat_ofNat,
      Nat.mod_eq_of_lt (lt_trans r.isLt (by decide)), Nat.mod_eq_of_lt (lt_trans c.isLt (by decide))] at h'
    exact Fin.ext h'
  · rintro rfl; rfl

/-! ## The similarity -/

section
variable (x0 : (⟨S8192x256, .f32⟩ : BufTy).Contents (Elt Ideal)) (x1 : (⟨S8192, .i32⟩ : BufTy).Contents (Elt Ideal))

/-- The contraction at (r, c) is the inner product of rows r and c. -/
theorem dot_eq (r c : Fin 8192) : val_main_v1 (F := Ideal) x0 (ix2 r c) = Cert.Spec.dot x0 r c := by
  rw [val_main_v1_apply]
  unfold Cert.Spec.dot
  refine Finset.sum_congr rfl fun k _ => ?_
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

/-- Scaled and clipped, it is the similarity. -/
theorem sim_eq (r c : Fin 8192) : val_main_v4 (F := Ideal) x0 (ix2 r c) = Cert.Spec.sim x0 r c := by
  rw [val_main_v4_apply, val_main_call0_v4_apply, val_main_call0_v3_apply, val_main_cst_1_apply,
    val_main_call0_v2_apply, val_main_call0_v1_apply, val_main_call0_v0_apply, val_main_cst_0_apply,
    val_main_v3_apply, val_main_v2_apply, val_main_cst_apply, dot_eq]
  simp only [Ideal.minimumf_def, Ideal.maximumf_def, Ideal.mulf_def, Ideal.ofBits_def]
  rfl

/-! ## The masks -/

/-- The comparison of the labels' two broadcasts at (r, c) is the bit of "tg r = tg c". -/
theorem same_eq (r c : Fin 8192) :
    val_main_v9 (F := Ideal) x1 (ix2 r c) = if x1 (ix1 r) = x1 (ix1 c) then 1#1 else 0#1 := by
  rw [val_main_v9_apply, val_main_v7_apply, val_main_v5_apply, val_main_v8_apply, val_main_v6_apply, cmpi_eq_ite]
  have e7 : idx_main_v5 (idx_main_v7 (ix2 r c)) = ix1 r :=
    funext fun a => Fin.ext (by match a with | ⟨0, _⟩ => rfl)
  have e8 : idx_main_v6 (idx_main_v8 (ix2 r c)) = ix1 c :=
    funext fun a => Fin.ext (by match a with | ⟨0, _⟩ => rfl)
  rw [e7, e8]

/-- The comparison of the row counter plus zero with the column counter at (r, c) is the bit of "r = c". -/
theorem diag_eq (r c : Fin 8192) :
    val_main_v14 (F := Ideal) (ix2 r c) = if r = c then 1#1 else 0#1 := by
  rw [val_main_v14_apply, val_main_v13_apply, val_main_v10_apply, val_main_v12_apply, val_main_c_apply,
    val_main_v11_apply, cmpi_eq_ite]
  show (if IntOp.addi (BitVec.ofNat 32 r.val) 0#32 = BitVec.ofNat 32 c.val then 1#1 else 0#1) = _
  have h0 : IntOp.addi (BitVec.ofNat 32 r.val) 0#32 = BitVec.ofNat 32 r.val := by
    unfold IntOp.addi; exact BitVec.add_zero _
  rw [h0]
  by_cases h : r = c
  · rw [if_pos h, if_pos ((word_eq_iff r c).mpr h)]
  · rw [if_neg h, if_neg (fun h' => h ((word_eq_iff r c).mp h'))]

/-- Its complement is the bit of "r ≠ c". -/
theorem offDiag_eq (r c : Fin 8192) :
    val_main_v15 (F := Ideal) (ix2 r c) = if r = c then 0#1 else 1#1 := by
  rw [val_main_v15_apply, diag_eq]
  by_cases h : r = c
  · rw [if_pos h, if_pos h]; decide
  · rw [if_neg h, if_neg h]; decide

/-- The positive mask at (r, c): the same label, another row. -/
theorem posMask_eq (r c : Fin 8192) :
    val_main_v16 (F := Ideal) x1 (ix2 r c) = if x1 (ix1 r) = x1 (ix1 c) ∧ r ≠ c then 1#1 else 0#1 := by
  rw [val_main_v16_apply, same_eq, offDiag_eq]
  unfold IntOp.andi
  by_cases h1 : x1 (ix1 r) = x1 (ix1 c)
  · by_cases h2 : r = c
    · have hn : ¬(x1 (ix1 r) = x1 (ix1 c) ∧ r ≠ c) := fun h => h.2 h2
      rw [if_pos h1, if_pos h2, if_neg hn]; decide
    · have hp : x1 (ix1 r) = x1 (ix1 c) ∧ r ≠ c := ⟨h1, h2⟩
      rw [if_pos h1, if_neg h2, if_pos hp]; decide
  · have hn : ¬(x1 (ix1 r) = x1 (ix1 c) ∧ r ≠ c) := fun h => h1 h.1
    rw [if_neg h1, if_neg hn]
    by_cases h2 : r = c
    · rw [if_pos h2]; decide
    · rw [if_neg h2]; decide

/-- The negative mask at (r, c): another label. -/
theorem negMask_eq (r c : Fin 8192) :
    val_main_v17 (F := Ideal) x1 (ix2 r c) = if x1 (ix1 r) = x1 (ix1 c) then 0#1 else 1#1 := by
  rw [val_main_v17_apply, same_eq]
  by_cases h : x1 (ix1 r) = x1 (ix1 c)
  · rw [if_pos h, if_pos h]; decide
  · rw [if_neg h, if_neg h]; decide

/-! ## The masked terms -/

/-- The fill of the positive select is zero everywhere. -/
theorem posFill_eq (i : S8192x8192.Idx) : val_main_call1_v1 (F := Ideal) i = (0 : EReal) := by
  rw [val_main_call1_v1_apply, val_main_call1_v0_apply, val_main_cst_2_apply, Ideal.ofBits_def,
    Ideal.ofBits_zero_f32]

/-- The fill of the negative select is zero everywhere. -/
theorem negFill_eq (i : S8192x8192.Idx) : val_main_call2_v1 (F := Ideal) i = (0 : EReal) := by
  rw [val_main_call2_v1_apply, val_main_call2_v0_apply, val_main_cst_4_apply, Ideal.ofBits_def,
    Ideal.ofBits_zero_f32]

/-- Column c's term of row r's positive sum. -/
theorem posTerm_eq (r c : Fin 8192) :
    val_main_v20 (F := Ideal) x0 x1 (ix2 r c) = Cert.Spec.posTerm x0 x1 r c := by
  rw [val_main_v20_apply, posMask_eq, val_main_v19_apply, val_main_v18_apply, sim_eq, posFill_eq]
  unfold Cert.Spec.posTerm
  simp only [Ideal.hostUnary_exp_def, Ideal.hostNegf_def, Ideal.negf_def]
  by_cases h : x1 (ix1 r) = x1 (ix1 c) ∧ r ≠ c
  · rw [if_pos h, if_pos h, select_one]
  · rw [if_neg h, if_neg h, select_zero]

/-- Column c's term of row r's negative sum. -/
theorem negTerm_eq (r c : Fin 8192) :
    val_main_v23 (F := Ideal) x0 x1 (ix2 r c) = Cert.Spec.negTerm x0 x1 r c := by
  rw [val_main_v23_apply, negMask_eq, val_main_v22_apply, sim_eq, negFill_eq]
  unfold Cert.Spec.negTerm
  simp only [Ideal.hostUnary_exp_def]
  by_cases h : x1 (ix1 r) = x1 (ix1 c)
  · rw [if_pos h, if_pos h, select_zero]
  · rw [if_neg h, if_neg h, select_one]

/-! ## The row sums, the row's loss, the mean -/

/-- Row r's positive sum: zero plus the sum over the columns. -/
theorem posSum_eq (r : Fin 8192) :
    val_main_v21 (F := Ideal) x0 x1 (ix1 r) = Cert.Spec.posSum x0 x1 r := by
  rw [val_main_v21_apply, val_main_cst_3_apply, Ideal.ofBits_def, Ideal.ofBits_zero_f32, zero_add]
  unfold Cert.Spec.posSum
  refine Finset.sum_congr rfl fun k _ => ?_
  have e : idx_main_v21 (ix1 r) k = ix2 r k :=
    funext fun a => Fin.ext (by match a with | ⟨0, _⟩ => rfl | ⟨1, _⟩ => rfl)
  rw [e, posTerm_eq]

/-- Row r's negative sum: zero plus the sum over the columns. -/
theorem negSum_eq (r : Fin 8192) :
    val_main_v24 (F := Ideal) x0 x1 (ix1 r) = Cert.Spec.negSum x0 x1 r := by
  rw [val_main_v24_apply, val_main_cst_5_apply, Ideal.ofBits_def, Ideal.ofBits_zero_f32, zero_add]
  unfold Cert.Spec.negSum
  refine Finset.sum_congr rfl fun k _ => ?_
  have e : idx_main_v24 (ix1 r) k = ix2 r k :=
    funext fun a => Fin.ext (by match a with | ⟨0, _⟩ => rfl | ⟨1, _⟩ => rfl)
  rw [e, negTerm_eq]

/-- Row r's loss: the logarithm of the product of its two sums. -/
theorem rowLoss_eq (r : Fin 8192) :
    val_main_v26 (F := Ideal) x0 x1 (ix1 r) = Cert.Spec.rowLoss x0 x1 r := by
  rw [val_main_v26_apply, val_main_v25_apply, posSum_eq, negSum_eq]
  simp only [Ideal.hostUnary_log_def, Ideal.mulf_def]
  rfl

end

/-- The reference's result is the specification's loss at its one index. -/
theorem ref_is_spec
    (x0 : (⟨Cert.ReferenceIdeal.S8192x256, .f32⟩ : BufTy).Contents (Elt Ideal))
    (x1 : (⟨Cert.ReferenceIdeal.S8192, .i32⟩ : BufTy).Contents (Elt Ideal)) :
    Cert.ReferenceIdeal.Read.val_main_v28 (F := Ideal) x0 x1 = fun _ => Cert.Spec.loss x0 x1 := by
  funext i
  rw [val_main_v28_apply, val_main_v27_apply, val_main_cst_6_apply, val_main_cst_7_apply]
  simp only [Ideal.ofBits_def, Ideal.hostDivf_def]
  rw [Ideal.ofBits_zero_f32, zero_add]
  unfold Cert.Spec.loss
  refine congrArg (fun s => Ideal.div s _) ?_
  rw [← Equiv.sum_comp (idxEquiv1 (n := 8192)).symm]
  exact Finset.sum_congr rfl fun r _ => rowLoss_eq x0 x1 r

end Cert.RefSide

end
-- ==== Proof.lean ====
/-
  The certificate of the pairwise exp-sum-log loss kernel against its reference.

  Both programs compute, for an 8192 x 256 input x and 8192 labels, the mean over the rows r of
  log ((Σ_c [same label, c ≠ r] exp (-s_rc)) * (Σ_c [other label] exp (s_rc))), with s_rc the inner product of rows
  r and c times one f32 scale, clipped to [-16, 16] (Proof/Spec.lean states it as one function of the arguments).
  The reference forms the full 8192 x 8192 matrix on the host. The kernel walks it tile by tile on an 8 x 16 grid:
  at each point it adds the tile's two masked row sums into two accumulators carried from point to point, zeroed at
  the first tile of each row block, and at the last tile of the block stores the logarithm of their product; the
  host then takes the mean. Over the extended reals a finite sum does not depend on how its terms are grouped
  or ordered, so the sixteen tile sums of a row add up to the reference's row sum, and the two results are one
  extended real. No finiteness of the inputs is used. The ideal pass rewrote nothing, so the preservation claim is
  trivial; the three frames are the three programs' runs with the result dropped.
-/
import proofs.«143555_j26147760898823_1_alg».proof.Defs
import proofs.«143555_j26147760898823_1_alg».proof.Proof.Gen.Kernel
import proofs.«143555_j26147760898823_1_alg».proof.Proof.Gen.Kernel.Skeleton
import proofs.«143555_j26147760898823_1_alg».proof.Proof.Gen.Kernel.Launch
import proofs.«143555_j26147760898823_1_alg».proof.Proof.Gen.Kernel.Points
import proofs.«143555_j26147760898823_1_alg».proof.Proof.Gen.KernelIdeal
import proofs.«143555_j26147760898823_1_alg».proof.Proof.Gen.KernelIdeal.Skeleton
import proofs.«143555_j26147760898823_1_alg».proof.Proof.Gen.KernelIdeal.Launch
import proofs.«143555_j26147760898823_1_alg».proof.Proof.Gen.KernelIdeal.Points
import proofs.«143555_j26147760898823_1_alg».proof.Proof.Gen.ReferenceIdeal
import proofs.«143555_j26147760898823_1_alg».proof.Proof.Gen.Pre_finite_inputs
import proofs.«143555_j26147760898823_1_alg».proof.Proof.Gen.ReferenceIdeal.Run
import proofs.«143555_j26147760898823_1_alg».proof.Proof.Gen.ReferenceIdeal.Read
import proofs.«143555_j26147760898823_1_alg».proof.Proof.KFrame
import proofs.«143555_j26147760898823_1_alg».proof.Proof.KIFrame
import proofs.«143555_j26147760898823_1_alg».proof.Proof.KIAccum
import proofs.«143555_j26147760898823_1_alg».proof.Proof.KIFinal
import proofs.«143555_j26147760898823_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel's program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel's. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel's result is the loss of its two argument arrays: the result array after all write-backs
    holds every row's loss, and the host's mean of it is the spec's. -/
theorem kernel_value (m : (ℓ : Loc Cert.KernelIdeal.nD Cert.KernelIdeal.τ Cert.KernelIdeal.sig) → Buf (Elt Ideal) ℓ) (c : Dev Cert.KernelIdeal.nD) :
    Host.divf (F := Ideal) (Host.reduceAdd (F := Ideal) ((Cert.KernelIdeal.Hand.dats (F := Ideal) m 0 c).arrAt 4 Cert.KernelIdeal.cfg0.N)
        (constant (F := Ideal) Cert.KernelIdeal.S_ .f32 0x00000000#32) Cert.KernelIdeal.Facts₀.reducesTo_S8192x1_S_d0_1 Cert.KernelIdeal.Facts₀.h_S_)
        (constant (F := Ideal) Cert.KernelIdeal.S_ .f32 0x46000000#32)
      = fun _ => Cert.Spec.loss (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.KernelIdeal.HandValue.mean_eq _ _ _ (fun y => by
    rw [Cert.KernelIdeal.HandValue.arrAt_out m c (Cert.KernelIdeal.HandValue.out_at_last m c)])

/-- From memories agreeing on the arguments both idealized programs run and end with the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_value m c), (h c).2.1, (h c).2.2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.RefSide.ref_is_spec, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
